-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x2048x5632 : S_.BroadcastsInDim S8x2048x5632 (![] : Fin 0 → Fin S8x2048x5632.rank)
  reducesTo_S8x2048x5632_S_d0_1_2 : S8x2048x5632.ReducesTo [0, 1, 2] S_
  bcast_S_S8x5632x2048 : S_.BroadcastsInDim S8x5632x2048 (![] : Fin 0 → Fin S8x5632x2048.rank)
  reducesTo_S8x5632x2048_S_d0_1_2 : S8x5632x2048.ReducesTo [0, 1, 2] S_

variable [Facts]

def fn_part1 {F : FTy → Type} [FloatOps F] (main_v13 : IVec S_ 1) (main_v16 : IVec S8x5632x2048 1) : IVec S_ 1 :=
  let main_c_5 : IVec S_ 1 := constantI S_ 1 1#1
  let main_v17 : IVec S_ 1 := (fun x v => Host.reduce IntOp.andi x v reducesTo_S8x5632x2048_S_d0_1_2 h_S_) main_v16 main_c_5
  let main_v18 : IVec S_ 1 := andi main_v13 main_v17
  main_v18

def fn {F : FTy → Type} [FloatOps F] (main_arg0 : FVec F S8x1024x2048 .f32) (main_arg1 : FVec F S8x2048x5632 .f32) (main_arg2 : FVec F S8x2048x5632 .f32) (main_arg3 : FVec F S8x5632x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x2048x5632 .f32 := Host.absf main_arg1
  let main_cst_0 : FVec F S_ .f32 := constant S_ .f32 0x7F800000#32
  let main_v5 : FVec F S8x2048x5632 .f32 := broadcastInDim S8x2048x5632 ![] bcast_S_S8x2048x5632 main_cst_0
  let main_v6 : IVec S8x2048x5632 1 := cmpf .olt main_v4 main_v5
  let main_c_1 : IVec S_ 1 := constantI S_ 1 1#1
  let main_v7 : IVec S_ 1 := (fun x v => Host.reduce IntOp.andi x v reducesTo_S8x2048x5632_S_d0_1_2 h_S_) main_v6 main_c_1
  let main_v8 : IVec S_ 1 := andi main_v3 main_v7
  let main_v9 : FVec F S8x2048x5632 .f32 := Host.absf main_arg2
  let main_cst_2 : FVec F S_ .f32 := constant S_ .f32 0x7F800000#32
  let main_v10 : FVec F S8x2048x5632 .f32 := broadcastInDim S8x2048x5632 ![] bcast_S_S8x2048x5632 main_cst_2
  let main_v11 : IVec S8x2048x5632 1 := cmpf .olt main_v9 main_v10
  let main_c_3 : IVec S_ 1 := constantI S_ 1 1#1
  let main_v12 : IVec S_ 1 := (fun x v => Host.reduce IntOp.andi x v reducesTo_S8x2048x5632_S_d0_1_2 h_S_) main_v11 main_c_3
  let main_v13 : IVec S_ 1 := andi main_v8 main_v12
  let main_v14 : FVec F S8x5632x2048 .f32 := Host.absf main_arg3
  let main_cst_4 : FVec F S_ .f32 := constant S_ .f32 0x7F800000#32
  let main_v15 : FVec F S8x5632x2048 .f32 := broadcastInDim S8x5632x2048 ![] bcast_S_S8x5632x2048 main_cst_4
  let main_v16 : IVec S8x5632x2048 1 := cmpf .olt main_v14 main_v15
  fn_part1 (F := F) main_v13 main_v16
-- ==== Kernel.lean ====
abbrev S8x1024x2048 : Shape := ⟨3, ![8, 1024, 2048]⟩
abbrev S8x2048x5632 : Shape := ⟨3, ![8, 2048, 5632]⟩
abbrev S8x5632x2048 : Shape := ⟨3, ![8, 5632, 2048]⟩
abbrev S8x1024x5632 : Shape := ⟨3, ![8, 1024, 5632]⟩
abbrev S1x1024x2048 : Shape := ⟨3, ![1, 1024, 2048]⟩
abbrev S1x2048x512 : Shape := ⟨3, ![1, 2048, 512]⟩
abbrev S1x1024x512 : Shape := ⟨3, ![1, 1024, 512]⟩
abbrev S1024x2048 : Shape := ⟨2, ![1024, 2048]⟩
abbrev S2048x512 : Shape := ⟨2, ![2048, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 10
  | .vmem => 15
  | .smem => 0
  | _ => 0

abbrev bufTy : (tb : Table) → Fin (tcTables nBuf tb) → BufTy
  | .hbm, ⟨0, _⟩ => ⟨S8x1024x2048, .f32⟩
  | .hbm, ⟨1, _⟩ => ⟨S8x2048x5632, .f32⟩
  | .hbm, ⟨2, _⟩ => ⟨S8x2048x5632, .f32⟩
  | .hbm, ⟨3, _⟩ => ⟨S8x5632x2048, .f32⟩
  | .hbm, ⟨4, _⟩ => ⟨S8x1024x2048, .bf16⟩
  | .hbm, ⟨5, _⟩ => ⟨S8x2048x5632, .bf16⟩
  | .hbm, ⟨6, _⟩ => ⟨S8x2048x5632, .bf16⟩
  | .hbm, ⟨7, _⟩ => ⟨S8x5632x2048, .bf16⟩
  | .hbm, ⟨8, _⟩ => ⟨S8x1024x5632, .bf16⟩
  | .hbm, ⟨9, _⟩ => ⟨S8x1024x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x1024x512, .f32⟩
  | .local _ .vmem, ⟨13, _⟩ => ⟨S1x1024x512, .f32⟩
  | .local _ .vmem, ⟨14, _⟩ => ⟨S1024x512, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 4, 11], ![false, false, false]⟩

def k1_cond2 (i : grid1.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_10 : BitVec 32 := 0#32
  let v15 : BitVec 1 := Scalar.cmpi .ne v14 c0_i32_10
  v15

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  dot_S1024x2048_S2048x512_S1024x512_1_0_0_1_n_n_wf : DotDims.WF S1024x2048 S2048x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .bf16 = 32 ∨ (Rect.block (s := S8x1024x2048) S1x1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x5632.size a
  hwx0_1 : ∀ i : grid0.Coords, EltTy.bits .bf16 = 32 ∨ (Rect.block (s := S8x2048x5632) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x5632.size a
  hwx0_2 : ∀ i : grid0.Coords, EltTy.bits .bf16 = 32 ∨ (Rect.block (s := S8x2048x5632) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x1024x5632.size a
  hwx0_3 : ∀ i : grid0.Coords, EltTy.bits .bf16 = 32 ∨ (Rect.block (s := S8x1024x5632) S1x1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x1024x5632.size a
  hwx1_0 : ∀ i : grid1.Coords, EltTy.bits .bf16 = 32 ∨ (Rect.block (s := S8x1024x5632) S1x1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S8x5632x2048.size a
  hwx1_1 : ∀ i : grid1.Coords, EltTy.bits .bf16 = 32 ∨ (Rect.block (s := S8x5632x2048) S1x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x512.size a ≤ S8x1024x2048.size a
  hwx1_2 : ∀ i : grid1.Coords, EltTy.bits .f32 = 32 ∨ (Rect.block (s := S8x1024x2048) S1x1024x512.size (cc1_transform_2 i) (hinb1_2 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x1024x2048 : Shape := ⟨3, ![8, 1024, 2048]⟩
abbrev S8x2048x5632 : Shape := ⟨3, ![8, 2048, 5632]⟩
abbrev S8x5632x2048 : Shape := ⟨3, ![8, 5632, 2048]⟩
abbrev S8x1024x5632 : Shape := ⟨3, ![8, 1024, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x2048x5632, .f32⟩
  | .hbm, ⟨2, _⟩ => ⟨S8x2048x5632, .f32⟩
  | .hbm, ⟨3, _⟩ => ⟨S8x5632x2048, .f32⟩
  | .hbm, ⟨4, _⟩ => ⟨S8x1024x5632, .f32⟩
  | .hbm, ⟨5, _⟩ => ⟨S8x1024x5632, .f32⟩
  | .hbm, ⟨6, _⟩ => ⟨S8x1024x5632, .f32⟩
  | .hbm, ⟨7, _⟩ => ⟨S8x1024x5632, .f32⟩
  | .hbm, ⟨8, _⟩ => ⟨S_, .f32⟩
  | .hbm, ⟨9, _⟩ => ⟨S8x1024x5632, .f32⟩
  | .hbm, ⟨10, _⟩ => ⟨S8x1024x5632, .f32⟩
  | .hbm, ⟨11, _⟩ => ⟨S_, .f32⟩
  | .hbm, ⟨12, _⟩ => ⟨S8x1024x5632, .f32⟩
  | .hbm, ⟨13, _⟩ => ⟨S8x1024x5632, .f32⟩
  | .hbm, ⟨14, _⟩ => ⟨S8x1024x5632, .f32⟩
  | .hbm, ⟨15, _⟩ => ⟨S8x1024x5632, .f32⟩
  | .hbm, ⟨16, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x1024x5632 : S_.BroadcastsInDim S8x1024x5632 (![] : Fin 0 → Fin S8x1024x5632.rank)
  dot_S8x1024x2048_S8x2048x5632_S8x1024x5632_2_1_1_2_0_0_wf : DotDims.WF S8x1024x2048 S8x2048x5632 S8x1024x5632 [2] [1] [1] [2] [0] [0]
  dot_S8x1024x5632_S8x5632x2048_S8x1024x2048_2_1_1_2_0_0_wf : DotDims.WF S8x1024x5632 S8x5632x2048 S8x1024x2048 [2] [1] [1] [2] [0] [0]

variable [Facts₀]

def dot_S8x1024x2048_S8x2048x5632_S8x1024x5632_2_1_1_2_0_0 : DotDims S8x1024x2048 S8x2048x5632 S8x1024x5632 where
  lhsContracting := [2]
  rhsContracting := [1]
  lhsNonContracting := [1]
  rhsNonContracting := [2]
  lhsBatch := [0]
  rhsBatch := [0]
  wf := dot_S8x1024x2048_S8x2048x5632_S8x1024x5632_2_1_1_2_0_0_wf
def dot_S8x1024x5632_S8x5632x2048_S8x1024x2048_2_1_1_2_0_0 : DotDims S8x1024x5632 S8x5632x2048 S8x1024x2048 where
  lhsContracting := [2]
  rhsContracting := [1]
  lhsNonContracting := [1]
  rhsNonContracting := [2]
  lhsBatch := [0]
  rhsBatch := [0]
  wf := dot_S8x1024x5632_S8x5632x2048_S8x1024x2048_2_1_1_2_0_0_wf

class Facts : Prop extends Facts₀ where

variable [Facts]
-- ==== Proof.K.Defs.lean ====
/-
  The proof data of the two kernel regions, stated once for any float instance.

  Region 0 (grid 8 × 11, point t = 11·e + j): the body reads the row block x[e] (1024 × 2048), the column slabs
  W1[e][:, 512j : 512j+512] and W2[e][:, 512j : 512j+512], and stores the 1024 × 512 slab
  silu(x·W1) ⊙ (x·W2) of y[e]: one whole-buffer store, so what the output's staging buffer holds after the
  body is the body's one payload of the three input blocks.

  Region 1 (grid 8 × 4 × 11, point t = 44·e + 11·d + j): the body keeps a 1024 × 512 accumulator in a scratch
  buffer across the eleven points of one (e, d): at j = 0 it is reset to zero, at every point the product of the
  slab y[e][:, 512j : 512j+512] with the tile W3[e][512j : 512j+512, 512d : 512d+512] is added, and at j = 10 it
  is copied into the output block. `acc1` is the accumulator after point n, by recursion on the point; the region's
  invariant holds the scratch buffer at it.
-/
import proofs.«156254_j30545807409458_1_alg».proof.Proof.Gen.Kernel.Launch
import proofs.«156254_j30545807409458_1_alg».proof.Proof.Gen.Kernel.Skeleton
import proofs.«156254_j30545807409458_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `V`: what the TensorCore's unscoped buffers hold when a region is entered.
variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as found; every input's buffer keeps its block; the output's buffer holds the
    body's payload of the three input blocks; the scoped rest and the generator register pass through. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: the point's product added to zero at the first of each run of eleven points,
    to what the point before left otherwise. -/
def acc1 (c : Dev nD) : (n : ℕ) → n < cfg1.N → Vec F S1024x512 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 11 = 0 then k1_pay1 (F := F) else acc1 c n (Nat.lt_of_succ_lt h))

theorem acc1_zero (c : Dev nD) (h : 0 < cfg1.N) :
    acc1 V c 0 h = k1_pay2 (iblk1 V c 0 ⟨0, h⟩) (iblk1 V c 1 ⟨0, h⟩) (k1_pay1 (F := F)) := rfl
theorem acc1_succ (c : Dev nD) (n : ℕ) (h : n + 1 < cfg1.N) :
    acc1 V c (n + 1) h = k1_pay2 (iblk1 V c 0 ⟨n + 1, h⟩) (iblk1 V c 1 ⟨n + 1, h⟩)
      (if (n + 1) % 11 = 0 then k1_pay1 (F := F) else acc1 V c n (Nat.lt_of_succ_lt h)) := rfl

/-- The scratch accumulator as a whole memref. -/
abbrev scM1 : Memref sig .tc .vmem S1024x512 .f32 := Memref.whole cc1_scratch0

/-- The scoped buffers region 1 neither stages nor uses (region 0's staging buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- Region 1's invariant before position `n`: before the first point every scoped buffer at anything; afterwards the
    scratch accumulator at what the point before left, the other scoped buffers at anything; the generator register at
    some state throughout. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (acc1 V c n hn) ∗ rest1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (acc1 V c (n - 1) (by omega)) ∗ rest1 (F := F) c ∗ (∃ r, prngReg c r)) := by
  cases n with
  | zero => exact absurd rfl hz
  | succ n => rfl

/-- Region 1's proof data: the arrays as found; the inputs' buffers keep their blocks; the output's buffer, at the
    points that store it, holds the accumulator; the invariant tracks the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem Phi1_succ (c : Dev nD) (t : Fin cfg1.N) :
    (dat1 V c).Φ t.succ = PhiS1 V c (t.val + 1) t.isLt := rfl

end Cert.Kernel.Fr

end
-- ==== Proof.K.Body0.lean ====
/- Region 0's body obligation: at every grid point the body, run on the staging buffers the pipeline hands it, leaves
   the three input buffers as found and the output buffer at its one payload of the three input blocks. -/
import proofs.«156254_j30545807409458_1_alg».proof.Proof.K.Defs
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers before the body -/

/-- The row block x[e] sits in window 0's current buffer at every point: it is fetched where e changes (the points
    ≡ 0 mod 11) and, the body leaving it in place, is still there at the ten points that follow. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The column slab of W1 is fetched at every point, so window 1's current buffer holds it. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Likewise the column slab of W2 in window 2's. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's one store -/

/-- The offsets of the body's accesses are all zero: each goes through its buffer's whole extent. -/
theorem off3_zero : (![0, 0, 0] : Fin 3 → Nat) = fun _ => 0 := funext fun a => by fin_cases a <;> rfl

/-- The rectangle of the output buffer the body loads and then stores through: the whole 1 × 1024 × 512 buffer. -/
abbrev rOut0 : Rect S1x1024x512 := Rect.unit (s := S1x1024x512) ![0, 0, 0] S1x1024x512.size inb_S1x1024x512_S1x1024x512_0_0_0

/-- That one store covers the output buffer: every index lies in the whole-buffer rectangle. -/
theorem coverOut0 (p : Vec F S1x1024x512 .bf16) (y : S1x1024x512.Idx) :
    ∃ pc ∈ ([⟨rOut0, p⟩] : List (View.Piece (Elt F) S1x1024x512 .bf16)), y ∈ pc.1.set :=
  ⟨_, List.mem_singleton_self _, View.mem_set_unit_zero off3_zero inb_S1x1024x512_S1x1024x512_0_0_0 y⟩

/-! ## The body's triple -/

set_option maxHeartbeats 1000000 in
/-- The body on whole staging memrefs, the three inputs' at contents x0, x1, x2 and the output's at anything, runs to
    a continuation that holds the inputs' as they were and the output's at the payload of x0, x1, x2: the three loads
    read the inputs whole, the load of the output reads whatever it holds and is dropped, and the one store through
    the whole-buffer rectangle overwrites every entry with the payload. -/
theorem sound_kernel0 (c : Dev nD) (E : Set ℕ) (i : grid0.Coords)
    (arg2 : Memref sig .tc .vmem S1x1024x2048 .bf16) (harg2 : arg2.IsWhole)
    (arg3 : Memref sig .tc .vmem S1x2048x512 .bf16) (harg3 : arg3.IsWhole)
    (arg4 : Memref sig .tc .vmem S1x2048x512 .bf16) (harg4 : arg4.IsWhole)
    (arg5 : Memref sig .tc .vmem S1x1024x512 .bf16) (harg5 : arg5.IsWhole)
    (x0 : Vec F S1x1024x2048 .bf16) (x1 : Vec F S1x2048x512 .bf16) (x2 : Vec F S1x2048x512 .bf16) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (k0_pay1 x0 x1 x2)) -∗ K ⟨⟩))
      ⊢ wp frame (wpE (defs₀ (F := F)) Variants.none c none) E (cc0__ffn1_kernel i arg2 harg2 arg3 harg3 arg4 harg4 arg5 harg5) K := by
  simp only [cc0__ffn1_kernel_eq_skeleton]; unfold cc0__ffn1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (coverOut0 _), View.canon_unit_zero off3_zero]
  simp only [View.readAt_eq_ld, View.ld_unit_zero (S := S1x1024x2048) off3_zero,
    View.ld_unit_zero (S := S1x2048x512) off3_zero]

/-! ## The body obligation, at a generic point -/

/-- What the body is called with at point t: the invariant, what the core owes, and each window's current buffer
    at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and debt, and each current buffer at what the proof data says the body
    leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, so the body's triple applies with the
    blocks as the read contents; the invariant and the debt pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Cases1.lean ====
/- Region 1, what its three control cases share. The innermost grid axis j = t % 11 decides the case: at j = 0 the
   body first resets the accumulator, at j = 10 it copies the accumulator to the output buffer, in between it only
   adds. Here: the two branch conditions in closed form over the 352 points; where the output window is idle and where
   it is written back; the input buffers holding their blocks at every point; the staging memrefs the body is called
   with; and the region's entry invariant split into the accumulator's buffer, the other scoped buffers and the
   generator register. -/
import proofs.«156254_j30545807409458_1_alg».proof.Proof.K.Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input buffers -/

/-- The buffer of input window 0 (the slab of y) holds its block at every point, fetched there or not: an unfetched
    point has the block index of the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The same for input window 1 (the tile of W3). -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The two branch conditions -/

/-- The first conditional's test, j = 0, as the body computes it from the innermost coordinate. -/
abbrev cond1_0 (i : grid1.Coords) : Prop :=
  (Scalar.cmpi .ne (Scalar.extui (Scalar.cmpi .eq (BitVec.ofNat 32 (i 2).val) 0#32)) 0#32) = 1#1
/-- It holds exactly at the points t with t % 11 = 0. -/
theorem hcond1_0 : ∀ t : Fin cfg1.N, cond1_0 (grid1.coords t) ↔ t.val % 11 = 0 :=
  (by decide +kernel : ∀ t : Fin grid1.N, cond1_0 (grid1.coords t) ↔ t.val % 11 = 0)

/-- The second conditional's test, j = 10. -/
abbrev cond1_1 (i : grid1.Coords) : Prop := k1_cond2 i = 1#1
/-- It holds exactly at the points t with t % 11 = 10. -/
theorem hcond1_1 : ∀ t : Fin cfg1.N, cond1_1 (grid1.coords t) ↔ t.val % 11 = 10 :=
  (by decide +kernel : ∀ t : Fin grid1.N, cond1_1 (grid1.coords t) ↔ t.val % 11 = 10)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Where j ≠ 10 the output window is idle (nothing is stored into its buffer) and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where j = 10 it is live. -/
theorem liveAt1_2 : ∀ t : Fin cfg1.N, cond1_1 (grid1.coords t) → cfg1.idle 2 (grid1.coords t) = false := by decide +kernel

/-! ## The memrefs the body is called with -/

/-- Each window's current staging memref at point t, and its wholeness. -/
abbrev ms1_0 (t : Fin cfg1.N) : Memref sig .tc .vmem S1x1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x512 .f32 := win1_2.stage (cfg1.slots t 2)
abbrev hs1_2 (t : Fin cfg1.N) : (ms1_2 t).IsWhole := hstage1_2 ((cfg1.slots t 2).cast nbuf1_2)
/-- The accumulator's buffer as a view: what it holds is stated through it. -/
abbrev VS1 : View sig .tc .vmem S1024x512 .f32 := scM1.view
/-- One staging buffer of the output window as a view, through which the stored block is read back. -/
abbrev VO1 : View sig .tc .vmem S1x1024x512 .f32 := (Memref.whole cc1_stg2_0 : Memref sig .tc .vmem S1x1024x512 .f32).view

/-! ## The entry invariant, split -/

/-- Every scoped buffer at anything gives the accumulator's buffer at anything beside the other eight. -/
theorem PhiA1_split (c : Dev nD) :
    (Pipeline.ΦA spec1 c : sProp 𝕄)
      ⊢ iprop((∃ d, owns (c : Thread nD τ) scM1 fullShare d) ∗ rest1 (F := F) c ∗ (∃ r, prngReg c r)) := by
  unfold Pipeline.ΦA; rw [scopedRest1_eq]; unfold rest1; simp only [scM1, owns_whole]
  iintro ⟨⟨H0, H1, H2, H3, H4, H5, H6, H7, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- And back: the accumulator's buffer at anything beside the other eight is every scoped buffer at anything. -/
theorem PhiA1_join (c : Dev nD) :
    iprop((∃ d, owns (c : Thread nD τ) scM1 fullShare d) ∗ rest1 (F := F) c ∗ (∃ r, prngReg c r))
      ⊢ (Pipeline.ΦA spec1 c : sProp 𝕄) := by
  unfold Pipeline.ΦA; rw [scopedRest1_eq]; unfold rest1; simp only [scM1, owns_whole]
  iintro ⟨HS, ⟨H0, H1, H2, H3, H4, H5, H6, H7⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.Kernel.Fr

end
-- ==== Proof.K.Run1A.lean ====
/- Region 1, case A (j = 0): the body's whole run. On whole memrefs — the two inputs at their blocks, the output
   buffer at anything (it is handed back untouched), the accumulator's buffer at anything — the body resets the
   accumulator, adds the point's product and stops; the accumulator's buffer ends with the pieces of the two stores
   (the later first). The pieces are what the symbolic run finds. -/
import proofs.«156254_j30545807409458_1_alg».proof.Proof.K.Cases1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A's run: the pieces the accumulator's buffer ends with, and the body's triple to any continuation that takes
    the inputs as they were, the output buffer as it was and the accumulator's buffer with those pieces written. -/
noncomputable def kernelRun1_A (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x512 .bf16) (x1 : Vec F S1x512x512 .bf16) :
    { LS0 : List (View.Piece (Elt F) S1024x512 .f32) //
      ∀ (xi2 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__ffn2_kernel i arg3 harg3 arg4 harg4 arg5 harg5 arg6 harg6) K } := by
  refine ⟨?_, fun xi2 E K => ?run⟩
  case run =>
    simp only [cc1__ffn2_kernel_eq_skeleton]; unfold cc1__ffn2_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.Run1B.lean ====
/- Region 1, case B (0 < j < 10): the body's whole run. On whole memrefs — the two inputs at their blocks, the output
   buffer at anything (handed back untouched), the accumulator's buffer at what the point before left — the body adds
   the point's product to the accumulator and stops; the accumulator's buffer ends with the one piece of that store. -/
import proofs.«156254_j30545807409458_1_alg».proof.Proof.K.Run1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B's run: the pieces the accumulator's buffer ends with, and the body's triple to any continuation that takes
    the inputs as they were, the output buffer as it was and the accumulator's buffer with those pieces written. -/
noncomputable def kernelRun1_B (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : ¬cond1_1 i)
    (x0 : Vec F S1x1024x512 .bf16) (x1 : Vec F S1x512x512 .bf16) (xs0 : Vec F S1024x512 .f32) :
    { LS0 : List (View.Piece (Elt F) S1024x512 .f32) //
      ∀ (xi2 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__ffn2_kernel i arg3 harg3 arg4 harg4 arg5 harg5 arg6 harg6) K } := by
  refine ⟨?_, fun xi2 E K => ?run⟩
  case run =>
    simp only [cc1__ffn2_kernel_eq_skeleton]; unfold cc1__ffn2_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2
    obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.Run1C.lean ====
/- Region 1, case C (j = 10): the body's whole run. On whole memrefs — the two inputs at their blocks, the output
   buffer at anything, the accumulator's buffer at what the point before left — the body adds the point's product to
   the accumulator, reads the accumulator back and stores it, re-shaped, over the whole output buffer; both buffers
   end with the one piece of their store. -/
import proofs.«156254_j30545807409458_1_alg».proof.Proof.K.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C's run: the pieces the output buffer and the accumulator's buffer end with, and the body's triple to any
    continuation that takes the inputs as they were and the two buffers with those pieces written. -/
noncomputable def kernelRun1_C (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x512 .bf16) (x1 : Vec F S1x512x512 .bf16) (xs0 : Vec F S1024x512 .f32) :
    Σ' (L2 : List (View.Piece (Elt F) S1x1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__ffn2_kernel i arg3 harg3 arg4 harg4 arg5 harg5 arg6 harg6) K } := by
  refine ⟨?_, ?_, fun E K => ?run⟩
  case run =>
    simp only [cc1__ffn2_kernel_eq_skeleton]; unfold cc1__ffn2_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1
    obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.K.Body1.lean ====
/- Region 1's body obligation: at every grid point the body adds the point's product to the scratch accumulator
   (reset first at the first of each eleven points) and copies it to the output buffer at the last of them; and the
   region's invariant at its two ends. -/
import proofs.«156254_j30545807409458_1_alg».proof.Proof.K.Run1C
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave, read back

Every store of the body covers its whole buffer, so a buffer read back after a case's stores holds the payload of the
last of them, whatever it held before; the accumulator that payload was computed from is what the buffer held when the
case loaded it: the zero block the reset had just stored (case A), or what the point before left (cases B and C). -/

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- Case A's two stores into the accumulator's buffer cover it. -/
theorem scover1_A (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x512 .bf16) (x1 : Vec F S1x512x512 .bf16) (y : S1024x512.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S1024x512.size (by sl_kernel_rfl) y

/-- Case A leaves the point's product added to zero: the later store covers, and the accumulator it read is the zero
    block the earlier store wrote. -/
theorem sread1_A (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x512 .bf16) (x1 : Vec F S1x512x512 .bf16)
    (v : View sig .tc .vmem S1024x512 .f32) (f : v.ty.Contents (Elt F)) :
    v.read (Elt F) (v.writes (Elt F) f (kernelRun1_A c i arg3 harg3 arg4 harg4 arg5 harg5 arg6 harg6 hc0 hc1 x0 x1).1) = k1_pay2 x0 x1 (k1_pay1 (F := F)) := by
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S1024x512) hz1_2, View.readCov_unit_zero (S := S1024x512) _ hz1_2]
  simp only [View.readAt_eq_ld, harg3.read_unread, harg4.read_unread, View.ld_unit_zero (S := S1x1024x512) hz1_3,
    View.ld_unit_zero (S := S1x512x512) hz1_3]

/-- Case B's one store into the accumulator's buffer covers it. -/
theorem scover1_B (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : ¬cond1_1 i)
    (x0 : Vec F S1x1024x512 .bf16) (x1 : Vec F S1x512x512 .bf16) (xs0 : Vec F S1024x512 .f32) (y : S1024x512.Idx) :
    ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S1024x512.size (by sl_kernel_rfl) y

/-- Case B leaves the point's product added to what the accumulator held. -/
theorem sread1_B (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : ¬cond1_1 i)
    (x0 : Vec F S1x1024x512 .bf16) (x1 : Vec F S1x512x512 .bf16) (xs0 : Vec F S1024x512 .f32)
    (v : View sig .tc .vmem S1024x512 .f32) (f : v.ty.Contents (Elt F)) :
    v.read (Elt F) (v.writes (Elt F) f (kernelRun1_B c i arg3 harg3 arg4 harg4 arg5 harg5 arg6 harg6 hc0 hc1 x0 x1 xs0).1) = k1_pay2 x0 x1 xs0 := by
  rw [View.read_writes_eq_canon _ _ _ (scover1_B c i arg3 harg3 arg4 harg4 arg5 harg5 arg6 harg6 hc0 hc1 x0 x1 xs0)]
  unfold kernelRun1_B
  dsimp only
  sl_unfold_words
  rw [View.canon_unit_zero hz1_2]
  simp only [View.readAt_eq_ld, harg3.read_unread, harg4.read_unread, harg6.read_unread, View.ld_unit_zero (S := S1x1024x512) hz1_3,
    View.ld_unit_zero (S := S1x512x512) hz1_3, View.ld_unit_zero (S := S1024x512) hz1_2]

/-- Case C's one store into the accumulator's buffer covers it. -/
theorem scover1_C (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x512 .bf16) (x1 : Vec F S1x512x512 .bf16) (xs0 : Vec F S1024x512 .f32) (y : S1024x512.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x512.size (by sl_kernel_rfl) y

/-- Case C leaves, in the accumulator's buffer, the point's product added to what it held. -/
theorem sread1_C (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x512 .bf16) (x1 : Vec F S1x512x512 .bf16) (xs0 : Vec F S1024x512 .f32)
    (v : View sig .tc .vmem S1024x512 .f32) (f : v.ty.Contents (Elt F)) :
    v.read (Elt F) (v.writes (Elt F) f (kernelRun1_C c i arg3 harg3 arg4 harg4 arg5 harg5 arg6 harg6 hc0 hc1 x0 x1 xs0).2.1) = k1_pay2 x0 x1 xs0 := by
  rw [View.read_writes_eq_canon _ _ _ (scover1_C c i arg3 harg3 arg4 harg4 arg5 harg5 arg6 harg6 hc0 hc1 x0 x1 xs0)]
  unfold kernelRun1_C
  dsimp only
  sl_unfold_words
  rw [View.canon_unit_zero hz1_2]
  simp only [View.readAt_eq_ld, harg3.read_unread, harg4.read_unread, harg6.read_unread, View.ld_unit_zero (S := S1x1024x512) hz1_3,
    View.ld_unit_zero (S := S1x512x512) hz1_3, View.ld_unit_zero (S := S1024x512) hz1_2]

/-- Case C's one store into the output buffer covers it. -/
theorem ocover1_C (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x512 .bf16) (x1 : Vec F S1x512x512 .bf16) (xs0 : Vec F S1024x512 .f32) (y : S1x1024x512.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1x1024x512.size (by sl_kernel_rfl) y

/-- Case C leaves, in the output buffer, the accumulator it has just updated, re-shaped. -/
theorem oread1_C (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x512 .bf16) (x1 : Vec F S1x512x512 .bf16) (xs0 : Vec F S1024x512 .f32)
    (v : View sig .tc .vmem S1x1024x512 .f32) (f : v.ty.Contents (Elt F)) :
    v.read (Elt F) (v.writes (Elt F) f (kernelRun1_C c i arg3 harg3 arg4 harg4 arg5 harg5 arg6 harg6 hc0 hc1 x0 x1 xs0).1) = k1_pay3 (k1_pay2 x0 x1 xs0) := by
  rw [View.read_writes_eq_canon _ _ _ (ocover1_C c i arg3 harg3 arg4 harg4 arg5 harg5 arg6 harg6 hc0 hc1 x0 x1 xs0)]
  unfold kernelRun1_C
  dsimp only
  sl_unfold_words
  rw [View.canon_unit_zero hz1_3]
  simp only [View.readAt_eq_ld, harg3.read_unread, harg4.read_unread, harg6.read_unread, View.ld_unit_zero (S := S1x1024x512) hz1_3,
    View.ld_unit_zero (S := S1x512x512) hz1_3, View.ld_unit_zero (S := S1024x512) hz1_2, View.readCov_unit_zero (S := S1024x512) _ hz1_2]

/-! ## The accumulator at a point, by the point's case -/

/-- At the first of each eleven points the accumulator is the point's product added to zero. -/
theorem acc1_reset (c : Dev nD) (t : Fin cfg1.N) (h0 : t.val % 11 = 0) :
    acc1 V c t.val t.isLt = k1_pay2 (iblk1 V c 0 t) (iblk1 V c 1 t) (k1_pay1 (F := F)) := by
  obtain ⟨n, hn⟩ := t
  cases n with
  | zero => exact acc1_zero V c hn
  | succ n =>
    have h0' : (n + 1) % 11 = 0 := h0
    exact (acc1_succ V c n hn).trans (by rw [if_pos h0'])

/-- At the others it is the point's product added to what the point before left. -/
theorem acc1_step (c : Dev nD) (t : Fin cfg1.N) (h0 : ¬t.val % 11 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 11 = 0 := h0
    exact (acc1_succ V c n hn).trans (by rw [if_neg h0']; rfl)

/-! ## The body obligation, at a generic point -/

/-- What the body is called with at point `t`: the invariant, nothing owed, each window's current buffer at what it
    holds there, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold their blocks; t % 11 says which case the point is in; the invariant
    hands the body the accumulator's buffer at what the point before left (at anything at the very first point) and
    takes it back at this point's accumulator; where t % 11 ≠ 10 the output buffer goes back as found, where
    t % 11 = 10 it holds the accumulator re-shaped. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi1_succ V c t, PhiS1_succ]
  have hN : t.val < 352 := lt_of_lt_of_eq t.isLt (show cfg1.N = 352 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 11 = 0
  · have h1 : ¬t.val % 11 = 10 := by omega
    rw [Dat.leavesExact_idle (dat1 V c) 2 t (idleAt1_2 t (fun h => h1 ((hcond1_1 t).mp h))) (noFlush1_2 t (fun h => h1 ((hcond1_1 t).mp h)))]
    rw [acc1_reset V c t h0]
    by_cases hz : t.val = 0
    · rw [Phi1_castSucc V c t, PhiS1_zero V c _ _ hz]
      refine BIBase.Entails.trans (sep_mono_left (PhiA1_split c)) ?_
      iintro ⟨⟨HS0, Hr, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact sread1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) scM1.view es0
        isplitl [Hr]; · iexact Hr
        iexact Hg
      isplitl [Ho]; · iexact Ho
      isplitl [H0]; · iexact H0
      isplitl [H1]; · iexact H1
      iexists _; iexact H2
    · rw [Phi1_castSucc V c t, PhiS1_pos V c _ _ hz]
      iintro ⟨⟨HS0, Hr, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0]
        · unfold owns; iexists _; isplitr
          swap; · iexact HS0
          ipureintro; exact sread1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) scM1.view es0
        isplitl [Hr]; · iexact Hr
        iexact Hg
      isplitl [Ho]; · iexact Ho
      isplitl [H0]; · iexact H0
      isplitl [H1]; · iexact H1
      iexists _; iexact H2
  · have hz : t.val ≠ 0 := fun hz => h0 (by rw [hz])
    rw [acc1_step V c t h0]
    rw [Phi1_castSucc V c t, PhiS1_pos V c _ _ hz]
    by_cases h1 : t.val % 11 = 10
    · rw [show (dat1 V c).leavesExact 2 t = owns (c : Thread nD τ) (ms1_2 t) fullShare ((dat1 V c).after 2 t) from by
        unfold Dat.leavesExact; rw [liveAt1_2 t ((hcond1_1 t).mpr h1)], after1_2, acc1_step V c t h0]
      iintro ⟨⟨HS0, Hr, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (acc1 V c (t.val - 1) (Nat.lt_of_le_of_lt (Nat.sub_le _ _) t.isLt))).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0]
        · unfold owns; iexists _; isplitr
          swap; · iexact HS0
          ipureintro; exact sread1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (acc1 V c (t.val - 1) (Nat.lt_of_le_of_lt (Nat.sub_le _ _) t.isLt)) scM1.view es0
        isplitl [Hr]; · iexact Hr
        iexact Hg
      isplitl [Ho]; · iexact Ho
      isplitl [H0]; · iexact H0
      isplitl [H1]; · iexact H1
      unfold owns; iexists _; isplitr
      swap; · iexact H2
      ipureintro; exact oread1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (acc1 V c (t.val - 1) (Nat.lt_of_le_of_lt (Nat.sub_le _ _) t.isLt)) (ms1_2 t).view e2
    · rw [Dat.leavesExact_idle (dat1 V c) 2 t (idleAt1_2 t (fun h => h1 ((hcond1_1 t).mp h))) (noFlush1_2 t (fun h => h1 ((hcond1_1 t).mp h)))]
      iintro ⟨⟨HS0, Hr, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (acc1 V c (t.val - 1) (Nat.lt_of_le_of_lt (Nat.sub_le _ _) t.isLt))).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact sread1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (acc1 V c (t.val - 1) (Nat.lt_of_le_of_lt (Nat.sub_le _ _) t.isLt)) scM1.view es0
        isplitl [Hr]; · iexact Hr
        iexact Hg
      isplitl [Ho]; · iexact Ho
      isplitl [H0]; · iexact H0
      isplitl [H1]; · iexact H1
      iexists _; iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands region 1 is its invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the scoped buffers back, the accumulator's contents forgotten. -/
theorem hout1 (c : Dev nD) : (dat1 V c).Φ (Fin.last cfg1.N) ⊢ (Pipeline.ΦA spec1 c : sProp 𝕄) := by
  have hN : (Fin.last cfg1.N).val ≠ 0 := by rw [Fin.val_last]; have : cfg1.N = 352 := N_1; omega
  rw [show (dat1 V c).Φ (Fin.last cfg1.N) = PhiS1 V c (Fin.last cfg1.N).val (Nat.le_of_lt_succ (Fin.last cfg1.N).isLt) from rfl,
    PhiS1_pos V c _ _ hN]
  refine BIBase.Entails.trans ?_ (PhiA1_join c)
  iintro ⟨HS0, Hr, Hg⟩
  isplitl [HS0]; · iexists _; iexact HS0
  isplitl [Hr]; · iexact Hr
  iexact Hg

end Cert.Kernel.Fr

end
-- ==== Proof.K.Run.lean ====
/-
  The whole run of the kernel's program, for any float instance: four host conversions, then the two kernel regions.

  Between the items a core's unscoped buffers hold: at launch the memory; after the four conversions their results
  beside it; after region 0 the same with the array of hidden activations at what the region's write-backs leave
  (`o2`); after region 1 the same with the result array at what that region's write-backs leave (`o3`). Region 0 is
  entered from the contents after the conversions, region 1 from the contents after region 0, so the second region's
  proof data read the first region's result. Each region takes its windows' arrays out of the unscoped buffers, runs
  its pipeline, and puts the arrays back at their final contents; the generator register and the core's empty debt ride
  along. The run ends with every argument array as launched and the result array at `o3`.
-/
import proofs.«156254_j30545807409458_1_alg».proof.Proof.K.Body0
import proofs.«156254_j30545807409458_1_alg».proof.Proof.K.Body1
import proofs.«156254_j30545807409458_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- What region 0 is entered from: the launch memory after the four conversions. -/
abbrev E1 : (c : Dev nD) → (b : Ref sig .tc) → Buf (Elt F) ((c : Thread nD τ).loc b) := fun c b => V1 m c b
/-- What region 0 leaves in the array of hidden activations: its write-backs folded over the entry contents. -/
def o2 (c : Dev nD) : Buf (Elt F) ((c : Thread nD τ).loc main_v4) := (dat0 (E1 m) c).arrAt 3 cfg0.N
/-- The unscoped buffers after region 0. -/
def W2 (c : Dev nD) : Valuation τ sig (Elt F) := Function.update (V1 m c) main_v4 (o2 m c)
/-- What region 1 is entered from. -/
abbrev E2 : (c : Dev nD) → (b : Ref sig .tc) → Buf (Elt F) ((c : Thread nD τ).loc b) := fun c b => W2 m c b
/-- What region 1 leaves in the result array. -/
def o3 (c : Dev nD) : Buf (Elt F) ((c : Thread nD τ).loc main_v5) := (dat1 (E2 m) c).arrAt 2 cfg1.N
/-- The unscoped buffers after region 1. -/
def W3 (c : Dev nD) : Valuation τ sig (Elt F) := Function.update (W2 m c) main_v5 (o3 m c)

/-- What the regions leave, as the unknowns the conditional frame is stated over. -/
def outsR : Outs (F := F) := fun j r c => if j = 2 then W2 m c r else W3 m c r

theorem outs2 (c : Dev nD) : outsR m 2 main_v4 c = o2 m c := by
  unfold outsR W2; rw [if_pos rfl]; exact Function.update_self ..
theorem outs3 (c : Dev nD) : outsR m 3 main_v5 c = o3 m c := by
  unfold outsR W3; rw [if_neg (by decide)]; exact Function.update_self ..
theorem V2_eq (c : Dev nD) : V2 m (outsR m) c = W2 m c := by
  show Function.update (V1 m c) main_v4 (outsR m 2 main_v4 c) = W2 m c
  rw [outs2]; rfl
theorem V3_eq (c : Dev nD) : V3 m (outsR m) c = W3 m c := by
  show Function.update (V2 m (outsR m) c) main_v5 (outsR m 3 main_v5 c) = W3 m c
  rw [outs3, V2_eq]; rfl

/-- Off the array of hidden activations region 0 changes nothing. -/
theorem E2_of (c : Dev nD) (b : Ref sig .tc) (h : b ∉ ([main_v4] : List (Ref sig .tc))) : E2 m c b = E1 m c b := by
  show W2 m c b = V1 m c b
  rw [← V2_eq]; exact V2_of m (outsR m) c b h
/-- Off the result array region 1 changes nothing. -/
theorem E3_of (c : Dev nD) (b : Ref sig .tc) (h : b ∉ ([main_v5] : List (Ref sig .tc))) : W3 m c b = W2 m c b := by
  rw [← V3_eq, ← V2_eq]; exact V3_of m (outsR m) c b h

theorem hF0 (c : Dev nD) (w : Fin cfg0.W) : (dat0 (E1 m) c).arrAt w cfg0.N = E2 m c (Pipeline.arrRef spec0 w) := by
  match w with
  | ⟨0, _⟩ => exact ((dat0 (E1 m) c).arrAt_in 0 rfl _).trans ((A_eq0 (E1 m) c 0).trans (E2_of m c _ (by decide)).symm)
  | ⟨1, _⟩ => exact ((dat0 (E1 m) c).arrAt_in 1 rfl _).trans ((A_eq0 (E1 m) c 1).trans (E2_of m c _ (by decide)).symm)
  | ⟨2, _⟩ => exact ((dat0 (E1 m) c).arrAt_in 2 rfl _).trans ((A_eq0 (E1 m) c 2).trans (E2_of m c _ (by decide)).symm)
  | ⟨3, _⟩ => exact (show W2 m c main_v4 = o2 m c from by unfold W2; exact Function.update_self ..).symm
theorem hrest0 (c : Dev nD) : ∀ b, b ∉ Finset.univ.image (Pipeline.arrRef spec0) → E2 m c b = E1 m c b :=
  fun b hb => E2_of m c b fun h => hb (by
    rw [List.mem_singleton.mp h]; exact Finset.mem_image.mpr ⟨3, Finset.mem_univ _, rfl⟩)

/-- Region 1's exit contents as a function of the reference. -/
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) := by
  match w with
  | ⟨0, _⟩ => exact ((dat1 (E2 m) c).arrAt_in 0 rfl _).trans ((A_eq1 (E2 m) c 0).trans (E3_of m c _ (by decide)).symm)
  | ⟨1, _⟩ => exact ((dat1 (E2 m) c).arrAt_in 1 rfl _).trans ((A_eq1 (E2 m) c 1).trans (E3_of m c _ (by decide)).symm)
  | ⟨2, _⟩ => exact (show W3 m c main_v5 = o3 m c from by unfold W3; exact Function.update_self ..).symm
theorem hrest1 (c : Dev nD) : ∀ b, b ∉ Finset.univ.image (Pipeline.arrRef spec1) → E3 m c b = E2 m c b :=
  fun b hb => E3_of m c b fun h => hb (by
    rw [List.mem_singleton.mp h]; exact Finset.mem_image.mpr ⟨2, Finset.mem_univ _, rfl⟩)

/-! ## The proof data family and the thread state -/

/-- Each pipeline's proof data at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c

abbrev vs₀ : Variants := Variants.none
/-- No core owes another anything: no level is assigned. -/
abbrev Lz : GSem nD τ sig → Finset Unit := fun _ => ∅
abbrev lvz : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from the contents after the conversions, left with the array of hidden
    activations at what its write-backs leave. -/
def reg0 : Pipeline.RegionSeg (pcfgs (F := F)) adm (pdats m) () defs₀ vs₀ Lz lvz 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lz lvz 0 fun _ _ => rfl
  pre c := iprop(StableHlo.held (c : Thread nD τ) (Pipeline.ucRefs τ sig) (V1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from the contents after region 0, left with the result array at what
    its write-backs leave. The scoped buffers and the generator register go into the region's invariant and come back. -/
def reg1 : Pipeline.RegionSeg (pcfgs (F := F)) adm (pdats m) () defs₀ vs₀ Lz lvz 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lz lvz 1 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run, given the regions' records: the conditional frame with the result array read too -/

theorem V3_main_v5 (outs : Outs (F := F)) (c : Dev nD) : V3 m outs c main_v5 = outs 3 main_v5 c := by
  show Function.update (V2 m outs c) main_v5 (outs 3 main_v5 c) main_v5 = _
  exact Function.update_self ..

set_option backward.isDefEq.respectTransparency.types false in
/-- The conditional run: as the conditional frame, and the final memory also holds the result array at what region 1
    leaves in it (`outs 3 main_v5`): the last valuation is read at that buffer as at the arguments'. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v5) = outs 3 main_v5 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨.rfl, hpre0 c, (hpost0 c).trans (hpre1 c), (hpost1 c).trans (sep_mono .rfl (hE2 c))⟩)
    (hinit := ?_) (QY := fun c s => s.mem ((c.tc : Thread nD τ).loc main_v5) = outs 3 main_v5 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨(h (Proc.devRef .tc main_v5) (Finset.mem_filter.mpr ⟨StableHlo.devRef_mem_tcRefs main_v5, by decide⟩)).trans (V3_main_v5 m outs c),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c)⟩
    · iexact HSI

/-! ## The run -/

set_option backward.isDefEq.respectTransparency.types false in
/-- From any memory with zero counters every weakly fair execution of the program terminates, nothing faulting, with the
    result array at what region 1's write-backs leave in it and every argument array as launched. -/
theorem run_main : θ_run defs (onTc (τ := τ) (main (F := F))) ⟨m, fun _ => 0, ρ⟩ (fun r => ∀ c : Dev nD,
      r.2.mem ((c.tc : Thread nD τ).loc main_v5) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_cond m emb₁ () vs₀ Lz lvz (fun _ _ => rfl) ρ (outsR m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V2_eq]; exact .rfl)
    (R1 := reg1 m) (hpre1 := fun c => by rw [V2_eq]; exact .rfl) (hpost1 := fun c => by rw [V3_eq]; exact .rfl)
  exact (θ_run defs _ _).mono (fun _ h c => ⟨(h c).1.trans (outs3 m c), (h c).2⟩) h

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Fr

end
-- ==== Proof.KI.Defs.lean ====
/-
  The proof data of the two kernel regions, stated once for any float instance.

  Region 0 (grid 8 × 11, point t = 11·e + j): the body reads the row block x[e] (1024 × 2048), the column slabs
  W1[e][:, 512j : 512j+512] and W2[e][:, 512j : 512j+512], and stores the 1024 × 512 slab
  silu(x·W1) ⊙ (x·W2) of y[e]: one whole-buffer store, so what the output's staging buffer holds after the
  body is the body's one payload of the three input blocks.

  Region 1 (grid 8 × 4 × 11, point t = 44·e + 11·d + j): the body keeps a 1024 × 512 accumulator in a scratch
  buffer across the eleven points of one (e, d): at j = 0 it is reset to zero, at every point the product of the
  slab y[e][:, 512j : 512j+512] with the tile W3[e][512j : 512j+512, 512d : 512d+512] is added, and at j = 10 it
  is copied into the output block. `acc1` is the accumulator after point n, by recursion on the point; the region's
  invariant holds the scratch buffer at it.
-/
import proofs.«156254_j30545807409458_1_alg».proof.Proof.Gen.KernelIdeal.Launch
import proofs.«156254_j30545807409458_1_alg».proof.Proof.Gen.KernelIdeal.Skeleton
import proofs.«156254_j30545807409458_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `V`: what the TensorCore's unscoped buffers hold when a region is entered.
variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as found; every input's buffer keeps its block; the output's buffer holds the
    body's payload of the three input blocks; the scoped rest and the generator register pass through. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: the point's product added to zero at the first of each run of eleven points,
    to what the point before left otherwise. -/
def acc1 (c : Dev nD) : (n : ℕ) → n < cfg1.N → Vec F S1024x512 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 11 = 0 then k1_pay1 (F := F) else acc1 c n (Nat.lt_of_succ_lt h))

theorem acc1_zero (c : Dev nD) (h : 0 < cfg1.N) :
    acc1 V c 0 h = k1_pay2 (iblk1 V c 0 ⟨0, h⟩) (iblk1 V c 1 ⟨0, h⟩) (k1_pay1 (F := F)) := rfl
theorem acc1_succ (c : Dev nD) (n : ℕ) (h : n + 1 < cfg1.N) :
    acc1 V c (n + 1) h = k1_pay2 (iblk1 V c 0 ⟨n + 1, h⟩) (iblk1 V c 1 ⟨n + 1, h⟩)
      (if (n + 1) % 11 = 0 then k1_pay1 (F := F) else acc1 V c n (Nat.lt_of_succ_lt h)) := rfl

/-- The scratch accumulator as a whole memref. -/
abbrev scM1 : Memref sig .tc .vmem S1024x512 .f32 := Memref.whole cc1_scratch0

/-- The scoped buffers region 1 neither stages nor uses (region 0's staging buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- Region 1's invariant before position `n`: before the first point every scoped buffer at anything; afterwards the
    scratch accumulator at what the point before left, the other scoped buffers at anything; the generator register at
    some state throughout. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (acc1 V c n hn) ∗ rest1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (acc1 V c (n - 1) (by omega)) ∗ rest1 (F := F) c ∗ (∃ r, prngReg c r)) := by
  cases n with
  | zero => exact absurd rfl hz
  | succ n => rfl

/-- Region 1's proof data: the arrays as found; the inputs' buffers keep their blocks; the output's buffer, at the
    points that store it, holds the accumulator; the invariant tracks the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem Phi1_succ (c : Dev nD) (t : Fin cfg1.N) :
    (dat1 V c).Φ t.succ = PhiS1 V c (t.val + 1) t.isLt := rfl

end Cert.KernelIdeal.Fr

end
-- ==== Proof.KI.Body0.lean ====
/- Region 0's body obligation: at every grid point the body, run on the staging buffers the pipeline hands it, leaves
   the three input buffers as found and the output buffer at its one payload of the three input blocks. -/
import proofs.«156254_j30545807409458_1_alg».proof.Proof.KI.Defs
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers before the body -/

/-- The row block x[e] sits in window 0's current buffer at every point: it is fetched where e changes (the points
    ≡ 0 mod 11) and, the body leaving it in place, is still there at the ten points that follow. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The column slab of W1 is fetched at every point, so window 1's current buffer holds it. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Likewise the column slab of W2 in window 2's. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's one store -/

/-- The offsets of the body's accesses are all zero: each goes through its buffer's whole extent. -/
theorem off3_zero : (![0, 0, 0] : Fin 3 → Nat) = fun _ => 0 := funext fun a => by fin_cases a <;> rfl

/-- The rectangle of the output buffer the body loads and then stores through: the whole 1 × 1024 × 512 buffer. -/
abbrev rOut0 : Rect S1x1024x512 := Rect.unit (s := S1x1024x512) ![0, 0, 0] S1x1024x512.size inb_S1x1024x512_S1x1024x512_0_0_0

/-- That one store covers the output buffer: every index lies in the whole-buffer rectangle. -/
theorem coverOut0 (p : Vec F S1x1024x512 .bf16) (y : S1x1024x512.Idx) :
    ∃ pc ∈ ([⟨rOut0, p⟩] : List (View.Piece (Elt F) S1x1024x512 .bf16)), y ∈ pc.1.set :=
  ⟨_, List.mem_singleton_self _, View.mem_set_unit_zero off3_zero inb_S1x1024x512_S1x1024x512_0_0_0 y⟩

/-! ## The body's triple -/

set_option maxHeartbeats 1000000 in
/-- The body on whole staging memrefs, the three inputs' at contents x0, x1, x2 and the output's at anything, runs to
    a continuation that holds the inputs' as they were and the output's at the payload of x0, x1, x2: the three loads
    read the inputs whole, the load of the output reads whatever it holds and is dropped, and the one store through
    the whole-buffer rectangle overwrites every entry with the payload. -/
theorem sound_kernel0 (c : Dev nD) (E : Set ℕ) (i : grid0.Coords)
    (arg2 : Memref sig .tc .vmem S1x1024x2048 .bf16) (harg2 : arg2.IsWhole)
    (arg3 : Memref sig .tc .vmem S1x2048x512 .bf16) (harg3 : arg3.IsWhole)
    (arg4 : Memref sig .tc .vmem S1x2048x512 .bf16) (harg4 : arg4.IsWhole)
    (arg5 : Memref sig .tc .vmem S1x1024x512 .bf16) (harg5 : arg5.IsWhole)
    (x0 : Vec F S1x1024x2048 .bf16) (x1 : Vec F S1x2048x512 .bf16) (x2 : Vec F S1x2048x512 .bf16) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (k0_pay1 x0 x1 x2)) -∗ K ⟨⟩))
      ⊢ wp frame (wpE (defs₀ (F := F)) Variants.none c none) E (cc0__ffn1_kernel i arg2 harg2 arg3 harg3 arg4 harg4 arg5 harg5) K := by
  simp only [cc0__ffn1_kernel_eq_skeleton]; unfold cc0__ffn1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (coverOut0 _), View.canon_unit_zero off3_zero]
  simp only [View.readAt_eq_ld, View.ld_unit_zero (S := S1x1024x2048) off3_zero,
    View.ld_unit_zero (S := S1x2048x512) off3_zero]

/-! ## The body obligation, at a generic point -/

/-- What the body is called with at point t: the invariant, what the core owes, and each window's current buffer
    at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and debt, and each current buffer at what the proof data says the body
    leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, so the body's triple applies with the
    blocks as the read contents; the invariant and the debt pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Cases1.lean ====
/- Region 1, what its three control cases share. The innermost grid axis j = t % 11 decides the case: at j = 0 the
   body first resets the accumulator, at j = 10 it copies the accumulator to the output buffer, in between it only
   adds. Here: the two branch conditions in closed form over the 352 points; where the output window is idle and where
   it is written back; the input buffers holding their blocks at every point; the staging memrefs the body is called
   with; and the region's entry invariant split into the accumulator's buffer, the other scoped buffers and the
   generator register. -/
import proofs.«156254_j30545807409458_1_alg».proof.Proof.KI.Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input buffers -/

/-- The buffer of input window 0 (the slab of y) holds its block at every point, fetched there or not: an unfetched
    point has the block index of the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The same for input window 1 (the tile of W3). -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The two branch conditions -/

/-- The first conditional's test, j = 0, as the body computes it from the innermost coordinate. -/
abbrev cond1_0 (i : grid1.Coords) : Prop :=
  (Scalar.cmpi .ne (Scalar.extui (Scalar.cmpi .eq (BitVec.ofNat 32 (i 2).val) 0#32)) 0#32) = 1#1
/-- It holds exactly at the points t with t % 11 = 0. -/
theorem hcond1_0 : ∀ t : Fin cfg1.N, cond1_0 (grid1.coords t) ↔ t.val % 11 = 0 :=
  (by decide +kernel : ∀ t : Fin grid1.N, cond1_0 (grid1.coords t) ↔ t.val % 11 = 0)

/-- The second conditional's test, j = 10. -/
abbrev cond1_1 (i : grid1.Coords) : Prop := k1_cond2 i = 1#1
/-- It holds exactly at the points t with t % 11 = 10. -/
theorem hcond1_1 : ∀ t : Fin cfg1.N, cond1_1 (grid1.coords t) ↔ t.val % 11 = 10 :=
  (by decide +kernel : ∀ t : Fin grid1.N, cond1_1 (grid1.coords t) ↔ t.val % 11 = 10)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Where j ≠ 10 the output window is idle (nothing is stored into its buffer) and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where j = 10 it is live. -/
theorem liveAt1_2 : ∀ t : Fin cfg1.N, cond1_1 (grid1.coords t) → cfg1.idle 2 (grid1.coords t) = false := by decide +kernel

/-! ## The memrefs the body is called with -/

/-- Each window's current staging memref at point t, and its wholeness. -/
abbrev ms1_0 (t : Fin cfg1.N) : Memref sig .tc .vmem S1x1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x512 .f32 := win1_2.stage (cfg1.slots t 2)
abbrev hs1_2 (t : Fin cfg1.N) : (ms1_2 t).IsWhole := hstage1_2 ((cfg1.slots t 2).cast nbuf1_2)
/-- The accumulator's buffer as a view: what it holds is stated through it. -/
abbrev VS1 : View sig .tc .vmem S1024x512 .f32 := scM1.view
/-- One staging buffer of the output window as a view, through which the stored block is read back. -/
abbrev VO1 : View sig .tc .vmem S1x1024x512 .f32 := (Memref.whole cc1_stg2_0 : Memref sig .tc .vmem S1x1024x512 .f32).view

/-! ## The entry invariant, split -/

/-- Every scoped buffer at anything gives the accumulator's buffer at anything beside the other eight. -/
theorem PhiA1_split (c : Dev nD) :
    (Pipeline.ΦA spec1 c : sProp 𝕄)
      ⊢ iprop((∃ d, owns (c : Thread nD τ) scM1 fullShare d) ∗ rest1 (F := F) c ∗ (∃ r, prngReg c r)) := by
  unfold Pipeline.ΦA; rw [scopedRest1_eq]; unfold rest1; simp only [scM1, owns_whole]
  iintro ⟨⟨H0, H1, H2, H3, H4, H5, H6, H7, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- And back: the accumulator's buffer at anything beside the other eight is every scoped buffer at anything. -/
theorem PhiA1_join (c : Dev nD) :
    iprop((∃ d, owns (c : Thread nD τ) scM1 fullShare d) ∗ rest1 (F := F) c ∗ (∃ r, prngReg c r))
      ⊢ (Pipeline.ΦA spec1 c : sProp 𝕄) := by
  unfold Pipeline.ΦA; rw [scopedRest1_eq]; unfold rest1; simp only [scM1, owns_whole]
  iintro ⟨HS, ⟨H0, H1, H2, H3, H4, H5, H6, H7⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.KernelIdeal.Fr

end
-- ==== Proof.KI.Run1A.lean ====
/- Region 1, case A (j = 0): the body's whole run. On whole memrefs — the two inputs at their blocks, the output
   buffer at anything (it is handed back untouched), the accumulator's buffer at anything — the body resets the
   accumulator, adds the point's product and stops; the accumulator's buffer ends with the pieces of the two stores
   (the later first). The pieces are what the symbolic run finds. -/
import proofs.«156254_j30545807409458_1_alg».proof.Proof.KI.Cases1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A's run: the pieces the accumulator's buffer ends with, and the body's triple to any continuation that takes
    the inputs as they were, the output buffer as it was and the accumulator's buffer with those pieces written. -/
noncomputable def kernelRun1_A (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x512 .bf16) (x1 : Vec F S1x512x512 .bf16) :
    { LS0 : List (View.Piece (Elt F) S1024x512 .f32) //
      ∀ (xi2 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__ffn2_kernel i arg3 harg3 arg4 harg4 arg5 harg5 arg6 harg6) K } := by
  refine ⟨?_, fun xi2 E K => ?run⟩
  case run =>
    simp only [cc1__ffn2_kernel_eq_skeleton]; unfold cc1__ffn2_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.Run1B.lean ====
/- Region 1, case B (0 < j < 10): the body's whole run. On whole memrefs — the two inputs at their blocks, the output
   buffer at anything (handed back untouched), the accumulator's buffer at what the point before left — the body adds
   the point's product to the accumulator and stops; the accumulator's buffer ends with the one piece of that store. -/
import proofs.«156254_j30545807409458_1_alg».proof.Proof.KI.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B's run: the pieces the accumulator's buffer ends with, and the body's triple to any continuation that takes
    the inputs as they were, the output buffer as it was and the accumulator's buffer with those pieces written. -/
noncomputable def kernelRun1_B (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : ¬cond1_1 i)
    (x0 : Vec F S1x1024x512 .bf16) (x1 : Vec F S1x512x512 .bf16) (xs0 : Vec F S1024x512 .f32) :
    { LS0 : List (View.Piece (Elt F) S1024x512 .f32) //
      ∀ (xi2 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__ffn2_kernel i arg3 harg3 arg4 harg4 arg5 harg5 arg6 harg6) K } := by
  refine ⟨?_, fun xi2 E K => ?run⟩
  case run =>
    simp only [cc1__ffn2_kernel_eq_skeleton]; unfold cc1__ffn2_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2
    obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.Run1C.lean ====
/- Region 1, case C (j = 10): the body's whole run. On whole memrefs — the two inputs at their blocks, the output
   buffer at anything, the accumulator's buffer at what the point before left — the body adds the point's product to
   the accumulator, reads the accumulator back and stores it, re-shaped, over the whole output buffer; both buffers
   end with the one piece of their store. -/
import proofs.«156254_j30545807409458_1_alg».proof.Proof.KI.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C's run: the pieces the output buffer and the accumulator's buffer end with, and the body's triple to any
    continuation that takes the inputs as they were and the two buffers with those pieces written. -/
noncomputable def kernelRun1_C (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x512 .bf16) (x1 : Vec F S1x512x512 .bf16) (xs0 : Vec F S1024x512 .f32) :
    Σ' (L2 : List (View.Piece (Elt F) S1x1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__ffn2_kernel i arg3 harg3 arg4 harg4 arg5 harg5 arg6 harg6) K } := by
  refine ⟨?_, ?_, fun E K => ?run⟩
  case run =>
    simp only [cc1__ffn2_kernel_eq_skeleton]; unfold cc1__ffn2_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1
    obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.KI.Body1.lean ====
/- Region 1's body obligation: at every grid point the body adds the point's product to the scratch accumulator
   (reset first at the first of each eleven points) and copies it to the output buffer at the last of them; and the
   region's invariant at its two ends. -/
import proofs.«156254_j30545807409458_1_alg».proof.Proof.KI.Run1C
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave, read back

Every store of the body covers its whole buffer, so a buffer read back after a case's stores holds the payload of the
last of them, whatever it held before; the accumulator that payload was computed from is what the buffer held when the
case loaded it: the zero block the reset had just stored (case A), or what the point before left (cases B and C). -/

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- Case A's two stores into the accumulator's buffer cover it. -/
theorem scover1_A (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x512 .bf16) (x1 : Vec F S1x512x512 .bf16) (y : S1024x512.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S1024x512.size (by sl_kernel_rfl) y

/-- Case A leaves the point's product added to zero: the later store covers, and the accumulator it read is the zero
    block the earlier store wrote. -/
theorem sread1_A (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x512 .bf16) (x1 : Vec F S1x512x512 .bf16)
    (v : View sig .tc .vmem S1024x512 .f32) (f : v.ty.Contents (Elt F)) :
    v.read (Elt F) (v.writes (Elt F) f (kernelRun1_A c i arg3 harg3 arg4 harg4 arg5 harg5 arg6 harg6 hc0 hc1 x0 x1).1) = k1_pay2 x0 x1 (k1_pay1 (F := F)) := by
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S1024x512) hz1_2, View.readCov_unit_zero (S := S1024x512) _ hz1_2]
  simp only [View.readAt_eq_ld, harg3.read_unread, harg4.read_unread, View.ld_unit_zero (S := S1x1024x512) hz1_3,
    View.ld_unit_zero (S := S1x512x512) hz1_3]

/-- Case B's one store into the accumulator's buffer covers it. -/
theorem scover1_B (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : ¬cond1_1 i)
    (x0 : Vec F S1x1024x512 .bf16) (x1 : Vec F S1x512x512 .bf16) (xs0 : Vec F S1024x512 .f32) (y : S1024x512.Idx) :
    ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S1024x512.size (by sl_kernel_rfl) y

/-- Case B leaves the point's product added to what the accumulator held. -/
theorem sread1_B (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : ¬cond1_1 i)
    (x0 : Vec F S1x1024x512 .bf16) (x1 : Vec F S1x512x512 .bf16) (xs0 : Vec F S1024x512 .f32)
    (v : View sig .tc .vmem S1024x512 .f32) (f : v.ty.Contents (Elt F)) :
    v.read (Elt F) (v.writes (Elt F) f (kernelRun1_B c i arg3 harg3 arg4 harg4 arg5 harg5 arg6 harg6 hc0 hc1 x0 x1 xs0).1) = k1_pay2 x0 x1 xs0 := by
  rw [View.read_writes_eq_canon _ _ _ (scover1_B c i arg3 harg3 arg4 harg4 arg5 harg5 arg6 harg6 hc0 hc1 x0 x1 xs0)]
  unfold kernelRun1_B
  dsimp only
  sl_unfold_words
  rw [View.canon_unit_zero hz1_2]
  simp only [View.readAt_eq_ld, harg3.read_unread, harg4.read_unread, harg6.read_unread, View.ld_unit_zero (S := S1x1024x512) hz1_3,
    View.ld_unit_zero (S := S1x512x512) hz1_3, View.ld_unit_zero (S := S1024x512) hz1_2]

/-- Case C's one store into the accumulator's buffer covers it. -/
theorem scover1_C (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x512 .bf16) (x1 : Vec F S1x512x512 .bf16) (xs0 : Vec F S1024x512 .f32) (y : S1024x512.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x512.size (by sl_kernel_rfl) y

/-- Case C leaves, in the accumulator's buffer, the point's product added to what it held. -/
theorem sread1_C (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x512 .bf16) (x1 : Vec F S1x512x512 .bf16) (xs0 : Vec F S1024x512 .f32)
    (v : View sig .tc .vmem S1024x512 .f32) (f : v.ty.Contents (Elt F)) :
    v.read (Elt F) (v.writes (Elt F) f (kernelRun1_C c i arg3 harg3 arg4 harg4 arg5 harg5 arg6 harg6 hc0 hc1 x0 x1 xs0).2.1) = k1_pay2 x0 x1 xs0 := by
  rw [View.read_writes_eq_canon _ _ _ (scover1_C c i arg3 harg3 arg4 harg4 arg5 harg5 arg6 harg6 hc0 hc1 x0 x1 xs0)]
  unfold kernelRun1_C
  dsimp only
  sl_unfold_words
  rw [View.canon_unit_zero hz1_2]
  simp only [View.readAt_eq_ld, harg3.read_unread, harg4.read_unread, harg6.read_unread, View.ld_unit_zero (S := S1x1024x512) hz1_3,
    View.ld_unit_zero (S := S1x512x512) hz1_3, View.ld_unit_zero (S := S1024x512) hz1_2]

/-- Case C's one store into the output buffer covers it. -/
theorem ocover1_C (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x512 .bf16) (x1 : Vec F S1x512x512 .bf16) (xs0 : Vec F S1024x512 .f32) (y : S1x1024x512.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1x1024x512.size (by sl_kernel_rfl) y

/-- Case C leaves, in the output buffer, the accumulator it has just updated, re-shaped. -/
theorem oread1_C (c : Dev nD) (i : grid1.Coords) (arg3 : Memref sig .tc .vmem S1x1024x512 .bf16) (harg3 : arg3.IsWhole) (arg4 : Memref sig .tc .vmem S1x512x512 .bf16) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x512 .bf16) (x1 : Vec F S1x512x512 .bf16) (xs0 : Vec F S1024x512 .f32)
    (v : View sig .tc .vmem S1x1024x512 .f32) (f : v.ty.Contents (Elt F)) :
    v.read (Elt F) (v.writes (Elt F) f (kernelRun1_C c i arg3 harg3 arg4 harg4 arg5 harg5 arg6 harg6 hc0 hc1 x0 x1 xs0).1) = k1_pay3 (k1_pay2 x0 x1 xs0) := by
  rw [View.read_writes_eq_canon _ _ _ (ocover1_C c i arg3 harg3 arg4 harg4 arg5 harg5 arg6 harg6 hc0 hc1 x0 x1 xs0)]
  unfold kernelRun1_C
  dsimp only
  sl_unfold_words
  rw [View.canon_unit_zero hz1_3]
  simp only [View.readAt_eq_ld, harg3.read_unread, harg4.read_unread, harg6.read_unread, View.ld_unit_zero (S := S1x1024x512) hz1_3,
    View.ld_unit_zero (S := S1x512x512) hz1_3, View.ld_unit_zero (S := S1024x512) hz1_2, View.readCov_unit_zero (S := S1024x512) _ hz1_2]

/-! ## The accumulator at a point, by the point's case -/

/-- At the first of each eleven points the accumulator is the point's product added to zero. -/
theorem acc1_reset (c : Dev nD) (t : Fin cfg1.N) (h0 : t.val % 11 = 0) :
    acc1 V c t.val t.isLt = k1_pay2 (iblk1 V c 0 t) (iblk1 V c 1 t) (k1_pay1 (F := F)) := by
  obtain ⟨n, hn⟩ := t
  cases n with
  | zero => exact acc1_zero V c hn
  | succ n =>
    have h0' : (n + 1) % 11 = 0 := h0
    exact (acc1_succ V c n hn).trans (by rw [if_pos h0'])

/-- At the others it is the point's product added to what the point before left. -/
theorem acc1_step (c : Dev nD) (t : Fin cfg1.N) (h0 : ¬t.val % 11 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 11 = 0 := h0
    exact (acc1_succ V c n hn).trans (by rw [if_neg h0']; rfl)

/-! ## The body obligation, at a generic point -/

/-- What the body is called with at point `t`: the invariant, nothing owed, each window's current buffer at what it
    holds there, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold their blocks; t % 11 says which case the point is in; the invariant
    hands the body the accumulator's buffer at what the point before left (at anything at the very first point) and
    takes it back at this point's accumulator; where t % 11 ≠ 10 the output buffer goes back as found, where
    t % 11 = 10 it holds the accumulator re-shaped. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi1_succ V c t, PhiS1_succ]
  have hN : t.val < 352 := lt_of_lt_of_eq t.isLt (show cfg1.N = 352 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 11 = 0
  · have h1 : ¬t.val % 11 = 10 := by omega
    rw [Dat.leavesExact_idle (dat1 V c) 2 t (idleAt1_2 t (fun h => h1 ((hcond1_1 t).mp h))) (noFlush1_2 t (fun h => h1 ((hcond1_1 t).mp h)))]
    rw [acc1_reset V c t h0]
    by_cases hz : t.val = 0
    · rw [Phi1_castSucc V c t, PhiS1_zero V c _ _ hz]
      refine BIBase.Entails.trans (sep_mono_left (PhiA1_split c)) ?_
      iintro ⟨⟨HS0, Hr, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact sread1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) scM1.view es0
        isplitl [Hr]; · iexact Hr
        iexact Hg
      isplitl [Ho]; · iexact Ho
      isplitl [H0]; · iexact H0
      isplitl [H1]; · iexact H1
      iexists _; iexact H2
    · rw [Phi1_castSucc V c t, PhiS1_pos V c _ _ hz]
      iintro ⟨⟨HS0, Hr, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0]
        · unfold owns; iexists _; isplitr
          swap; · iexact HS0
          ipureintro; exact sread1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) scM1.view es0
        isplitl [Hr]; · iexact Hr
        iexact Hg
      isplitl [Ho]; · iexact Ho
      isplitl [H0]; · iexact H0
      isplitl [H1]; · iexact H1
      iexists _; iexact H2
  · have hz : t.val ≠ 0 := fun hz => h0 (by rw [hz])
    rw [acc1_step V c t h0]
    rw [Phi1_castSucc V c t, PhiS1_pos V c _ _ hz]
    by_cases h1 : t.val % 11 = 10
    · rw [show (dat1 V c).leavesExact 2 t = owns (c : Thread nD τ) (ms1_2 t) fullShare ((dat1 V c).after 2 t) from by
        unfold Dat.leavesExact; rw [liveAt1_2 t ((hcond1_1 t).mpr h1)], after1_2, acc1_step V c t h0]
      iintro ⟨⟨HS0, Hr, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (acc1 V c (t.val - 1) (Nat.lt_of_le_of_lt (Nat.sub_le _ _) t.isLt))).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0]
        · unfold owns; iexists _; isplitr
          swap; · iexact HS0
          ipureintro; exact sread1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (acc1 V c (t.val - 1) (Nat.lt_of_le_of_lt (Nat.sub_le _ _) t.isLt)) scM1.view es0
        isplitl [Hr]; · iexact Hr
        iexact Hg
      isplitl [Ho]; · iexact Ho
      isplitl [H0]; · iexact H0
      isplitl [H1]; · iexact H1
      unfold owns; iexists _; isplitr
      swap; · iexact H2
      ipureintro; exact oread1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (acc1 V c (t.val - 1) (Nat.lt_of_le_of_lt (Nat.sub_le _ _) t.isLt)) (ms1_2 t).view e2
    · rw [Dat.leavesExact_idle (dat1 V c) 2 t (idleAt1_2 t (fun h => h1 ((hcond1_1 t).mp h))) (noFlush1_2 t (fun h => h1 ((hcond1_1 t).mp h)))]
      iintro ⟨⟨HS0, Hr, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (acc1 V c (t.val - 1) (Nat.lt_of_le_of_lt (Nat.sub_le _ _) t.isLt))).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact sread1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (acc1 V c (t.val - 1) (Nat.lt_of_le_of_lt (Nat.sub_le _ _) t.isLt)) scM1.view es0
        isplitl [Hr]; · iexact Hr
        iexact Hg
      isplitl [Ho]; · iexact Ho
      isplitl [H0]; · iexact H0
      isplitl [H1]; · iexact H1
      iexists _; iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands region 1 is its invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the scoped buffers back, the accumulator's contents forgotten. -/
theorem hout1 (c : Dev nD) : (dat1 V c).Φ (Fin.last cfg1.N) ⊢ (Pipeline.ΦA spec1 c : sProp 𝕄) := by
  have hN : (Fin.last cfg1.N).val ≠ 0 := by rw [Fin.val_last]; have : cfg1.N = 352 := N_1; omega
  rw [show (dat1 V c).Φ (Fin.last cfg1.N) = PhiS1 V c (Fin.last cfg1.N).val (Nat.le_of_lt_succ (Fin.last cfg1.N).isLt) from rfl,
    PhiS1_pos V c _ _ hN]
  refine BIBase.Entails.trans ?_ (PhiA1_join c)
  iintro ⟨HS0, Hr, Hg⟩
  isplitl [HS0]; · iexists _; iexact HS0
  isplitl [Hr]; · iexact Hr
  iexact Hg

end Cert.KernelIdeal.Fr

end
-- ==== Proof.KI.Run.lean ====
/-
  The whole run of the kernel's program, for any float instance: four host conversions, then the two kernel regions.

  Between the items a core's unscoped buffers hold: at launch the memory; after the four conversions their results
  beside it; after region 0 the same with the array of hidden activations at what the region's write-backs leave
  (`o2`); after region 1 the same with the result array at what that region's write-backs leave (`o3`). Region 0 is
  entered from the contents after the conversions, region 1 from the contents after region 0, so the second region's
  proof data read the first region's result. Each region takes its windows' arrays out of the unscoped buffers, runs
  its pipeline, and puts the arrays back at their final contents; the generator register and the core's empty debt ride
  along. The run ends with every argument array as launched and the result array at `o3`.
-/
import proofs.«156254_j30545807409458_1_alg».proof.Proof.KI.Body0
import proofs.«156254_j30545807409458_1_alg».proof.Proof.KI.Body1
import proofs.«156254_j30545807409458_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- What region 0 is entered from: the launch memory after the four conversions. -/
abbrev E1 : (c : Dev nD) → (b : Ref sig .tc) → Buf (Elt F) ((c : Thread nD τ).loc b) := fun c b => V1 m c b
/-- What region 0 leaves in the array of hidden activations: its write-backs folded over the entry contents. -/
def o2 (c : Dev nD) : Buf (Elt F) ((c : Thread nD τ).loc main_v4) := (dat0 (E1 m) c).arrAt 3 cfg0.N
/-- The unscoped buffers after region 0. -/
def W2 (c : Dev nD) : Valuation τ sig (Elt F) := Function.update (V1 m c) main_v4 (o2 m c)
/-- What region 1 is entered from. -/
abbrev E2 : (c : Dev nD) → (b : Ref sig .tc) → Buf (Elt F) ((c : Thread nD τ).loc b) := fun c b => W2 m c b
/-- What region 1 leaves in the result array. -/
def o3 (c : Dev nD) : Buf (Elt F) ((c : Thread nD τ).loc main_v5) := (dat1 (E2 m) c).arrAt 2 cfg1.N
/-- The unscoped buffers after region 1. -/
def W3 (c : Dev nD) : Valuation τ sig (Elt F) := Function.update (W2 m c) main_v5 (o3 m c)

/-- What the regions leave, as the unknowns the conditional frame is stated over. -/
def outsR : Outs (F := F) := fun j r c => if j = 2 then W2 m c r else W3 m c r

theorem outs2 (c : Dev nD) : outsR m 2 main_v4 c = o2 m c := by
  unfold outsR W2; rw [if_pos rfl]; exact Function.update_self ..
theorem outs3 (c : Dev nD) : outsR m 3 main_v5 c = o3 m c := by
  unfold outsR W3; rw [if_neg (by decide)]; exact Function.update_self ..
theorem V2_eq (c : Dev nD) : V2 m (outsR m) c = W2 m c := by
  show Function.update (V1 m c) main_v4 (outsR m 2 main_v4 c) = W2 m c
  rw [outs2]; rfl
theorem V3_eq (c : Dev nD) : V3 m (outsR m) c = W3 m c := by
  show Function.update (V2 m (outsR m) c) main_v5 (outsR m 3 main_v5 c) = W3 m c
  rw [outs3, V2_eq]; rfl

/-- Off the array of hidden activations region 0 changes nothing. -/
theorem E2_of (c : Dev nD) (b : Ref sig .tc) (h : b ∉ ([main_v4] : List (Ref sig .tc))) : E2 m c b = E1 m c b := by
  show W2 m c b = V1 m c b
  rw [← V2_eq]; exact V2_of m (outsR m) c b h
/-- Off the result array region 1 changes nothing. -/
theorem E3_of (c : Dev nD) (b : Ref sig .tc) (h : b ∉ ([main_v5] : List (Ref sig .tc))) : W3 m c b = W2 m c b := by
  rw [← V3_eq, ← V2_eq]; exact V3_of m (outsR m) c b h

theorem hF0 (c : Dev nD) (w : Fin cfg0.W) : (dat0 (E1 m) c).arrAt w cfg0.N = E2 m c (Pipeline.arrRef spec0 w) := by
  match w with
  | ⟨0, _⟩ => exact ((dat0 (E1 m) c).arrAt_in 0 rfl _).trans ((A_eq0 (E1 m) c 0).trans (E2_of m c _ (by decide)).symm)
  | ⟨1, _⟩ => exact ((dat0 (E1 m) c).arrAt_in 1 rfl _).trans ((A_eq0 (E1 m) c 1).trans (E2_of m c _ (by decide)).symm)
  | ⟨2, _⟩ => exact ((dat0 (E1 m) c).arrAt_in 2 rfl _).trans ((A_eq0 (E1 m) c 2).trans (E2_of m c _ (by decide)).symm)
  | ⟨3, _⟩ => exact (show W2 m c main_v4 = o2 m c from by unfold W2; exact Function.update_self ..).symm
theorem hrest0 (c : Dev nD) : ∀ b, b ∉ Finset.univ.image (Pipeline.arrRef spec0) → E2 m c b = E1 m c b :=
  fun b hb => E2_of m c b fun h => hb (by
    rw [List.mem_singleton.mp h]; exact Finset.mem_image.mpr ⟨3, Finset.mem_univ _, rfl⟩)

/-- Region 1's exit contents as a function of the reference. -/
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) := by
  match w with
  | ⟨0, _⟩ => exact ((dat1 (E2 m) c).arrAt_in 0 rfl _).trans ((A_eq1 (E2 m) c 0).trans (E3_of m c _ (by decide)).symm)
  | ⟨1, _⟩ => exact ((dat1 (E2 m) c).arrAt_in 1 rfl _).trans ((A_eq1 (E2 m) c 1).trans (E3_of m c _ (by decide)).symm)
  | ⟨2, _⟩ => exact (show W3 m c main_v5 = o3 m c from by unfold W3; exact Function.update_self ..).symm
theorem hrest1 (c : Dev nD) : ∀ b, b ∉ Finset.univ.image (Pipeline.arrRef spec1) → E3 m c b = E2 m c b :=
  fun b hb => E3_of m c b fun h => hb (by
    rw [List.mem_singleton.mp h]; exact Finset.mem_image.mpr ⟨2, Finset.mem_univ _, rfl⟩)

/-! ## The proof data family and the thread state -/

/-- Each pipeline's proof data at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c

abbrev vs₀ : Variants := Variants.none
/-- No core owes another anything: no level is assigned. -/
abbrev Lz : GSem nD τ sig → Finset Unit := fun _ => ∅
abbrev lvz : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from the contents after the conversions, left with the array of hidden
    activations at what its write-backs leave. -/
def reg0 : Pipeline.RegionSeg (pcfgs (F := F)) adm (pdats m) () defs₀ vs₀ Lz lvz 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lz lvz 0 fun _ _ => rfl
  pre c := iprop(StableHlo.held (c : Thread nD τ) (Pipeline.ucRefs τ sig) (V1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from the contents after region 0, left with the result array at what
    its write-backs leave. The scoped buffers and the generator register go into the region's invariant and come back. -/
def reg1 : Pipeline.RegionSeg (pcfgs (F := F)) adm (pdats m) () defs₀ vs₀ Lz lvz 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lz lvz 1 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run, given the regions' records: the conditional frame with the result array read too -/

theorem V3_main_v5 (outs : Outs (F := F)) (c : Dev nD) : V3 m outs c main_v5 = outs 3 main_v5 c := by
  show Function.update (V2 m outs c) main_v5 (outs 3 main_v5 c) main_v5 = _
  exact Function.update_self ..

set_option backward.isDefEq.respectTransparency.types false in
/-- The conditional run: as the conditional frame, and the final memory also holds the result array at what region 1
    leaves in it (`outs 3 main_v5`): the last valuation is read at that buffer as at the arguments'. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v5) = outs 3 main_v5 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨.rfl, hpre0 c, (hpost0 c).trans (hpre1 c), (hpost1 c).trans (sep_mono .rfl (hE2 c))⟩)
    (hinit := ?_) (QY := fun c s => s.mem ((c.tc : Thread nD τ).loc main_v5) = outs 3 main_v5 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨(h (Proc.devRef .tc main_v5) (Finset.mem_filter.mpr ⟨StableHlo.devRef_mem_tcRefs main_v5, by decide⟩)).trans (V3_main_v5 m outs c),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c)⟩
    · iexact HSI

/-! ## The run -/

set_option backward.isDefEq.respectTransparency.types false in
/-- From any memory with zero counters every weakly fair execution of the program terminates, nothing faulting, with the
    result array at what region 1's write-backs leave in it and every argument array as launched. -/
theorem run_main : θ_run defs (onTc (τ := τ) (main (F := F))) ⟨m, fun _ => 0, ρ⟩ (fun r => ∀ c : Dev nD,
      r.2.mem ((c.tc : Thread nD τ).loc main_v5) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_cond m emb₁ () vs₀ Lz lvz (fun _ _ => rfl) ρ (outsR m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V2_eq]; exact .rfl)
    (R1 := reg1 m) (hpre1 := fun c => by rw [V2_eq]; exact .rfl) (hpost1 := fun c => by rw [V3_eq]; exact .rfl)
  exact (θ_run defs _ _).mono (fun _ h c => ⟨(h c).1.trans (outs3 m c), (h c).2⟩) h

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Fr

end
-- ==== Proof.Spec.lean ====
/-
  What both programs compute, as functions of the four argument arrays over the extended reals.

  For expert e, token t and hidden unit h, with y1 = Σ_k x[e,t,k]·W1[e,k,h] and y2 = Σ_k x[e,t,k]·W2[e,k,h],
      Y[e,t,h] = (y1 · (1 / (1 + exp(−y1)))) · y2,
  and for model coordinate d
      Out[e,t,d] = Σ_h Y[e,t,h] · W3[e,h,d].
  The kernel computes Y slab by slab (512 hidden units at a time) and Out by adding, for j = 0 … 10, the partial
  sums over the hidden units 512j … 512j+511; a sum over 5632 = 11 · 512 terms is the sum of those eleven partial
  sums (`sum_split`), which uses only that addition is commutative and associative.
-/
import Idealize.ShloMosaic.PureOps.Ideal
import Idealize.ShloMosaic.PureOps.Ideal.Laws
import Idealize.ShloMosaic.Lib.ValueIdx
import Mathlib.Algebra.BigOperators.Fin
import Mathlib.Algebra.BigOperators.Intervals

noncomputable section

open scoped BigOperators

namespace Cert.Spec

open Idealize.ShloMosaic Idealize.ShloMosaic.ValueIdx

/-- One of the two projections: Σ_k x[e,t,k] · w[e,k,h]. -/
def proj (x : (⟨3, ![8, 1024, 2048]⟩ : Shape).Idx → EReal) (w : (⟨3, ![8, 2048, 5632]⟩ : Shape).Idx → EReal)
    (e : Fin 8) (t : Fin 1024) (h : Fin 5632) : EReal :=
  ∑ k : Fin 2048, x (ix3 e t k) * w (ix3 e k h)

/-- The gated hidden activation at coordinates. -/
def yAt (x : (⟨3, ![8, 1024, 2048]⟩ : Shape).Idx → EReal) (w1 w2 : (⟨3, ![8, 2048, 5632]⟩ : Shape).Idx → EReal)
    (e : Fin 8) (t : Fin 1024) (h : Fin 5632) : EReal :=
  (proj x w1 e t h * Ideal.logistic (proj x w1 e t h)) * proj x w2 e t h

/-- The gated hidden activation as an array. -/
def Yspec (x : (⟨3, ![8, 1024, 2048]⟩ : Shape).Idx → EReal) (w1 w2 : (⟨3, ![8, 2048, 5632]⟩ : Shape).Idx → EReal) :
    (⟨3, ![8, 1024, 5632]⟩ : Shape).Idx → EReal :=
  fun i => yAt x w1 w2 (i 0) (i 1) (i 2)

/-- The output projection at coordinates. -/
def oAt (y : (⟨3, ![8, 1024, 5632]⟩ : Shape).Idx → EReal) (w3 : (⟨3, ![8, 5632, 2048]⟩ : Shape).Idx → EReal)
    (e : Fin 8) (t : Fin 1024) (d : Fin 2048) : EReal :=
  ∑ h : Fin 5632, y (ix3 e t h) * w3 (ix3 e h d)

/-- The output projection as an array. -/
def Ospec (y : (⟨3, ![8, 1024, 5632]⟩ : Shape).Idx → EReal) (w3 : (⟨3, ![8, 5632, 2048]⟩ : Shape).Idx → EReal) :
    (⟨3, ![8, 1024, 2048]⟩ : Shape).Idx → EReal :=
  fun i => oAt y w3 (i 0) (i 1) (i 2)

/-- A sum over 5632 = 11 · 512 terms, grouped into eleven runs of 512 consecutive terms. -/
theorem sum_split (g : Fin 5632 → EReal) :
    ∑ h : Fin 5632, g h
      = ∑ j ∈ Finset.range 11, ∑ k : Fin 512,
          (if hj : 512 * j + k.val < 5632 then g ⟨512 * j + k.val, hj⟩ else 0) := by
  -- the outer sum over j < 11 as a sum over Fin 11
  rw [Finset.sum_range]
  -- h ↦ (h / 512, h % 512) is a bijection of Fin 5632 with Fin 11 × Fin 512, whose inverse is (j, k) ↦ k + 512 · j
  calc ∑ h : Fin 5632, g h
      = ∑ p : Fin 11 × Fin 512, g ((finProdFinEquiv : Fin 11 × Fin 512 ≃ Fin 5632) p) :=
        (Equiv.sum_comp (finProdFinEquiv : Fin 11 × Fin 512 ≃ Fin 5632) g).symm
    _ = ∑ j : Fin 11, ∑ k : Fin 512, g ((finProdFinEquiv : Fin 11 × Fin 512 ≃ Fin 5632) (j, k)) :=
        Fintype.sum_prod_type _
    _ = _ := by
        refine Finset.sum_congr rfl fun j _ => Finset.sum_congr rfl fun k _ => ?_
        have hj : 512 * j.val + k.val < 5632 := by omega
        rw [dif_pos hj]
        refine congrArg g (Fin.ext ?_)
        show k.val + 512 * j.val = 512 * j.val + k.val
        omega

end Cert.Spec

end
-- ==== Proof.Val0.lean ====
/- Region 0's value over the extended reals: after the region, the array of hidden activations holds
   Y[e,t,h] = silu(Σ_k x[e,t,k]·W1[e,k,h]) · Σ_k x[e,t,k]·W2[e,k,h] of the three arrays the region read. -/
import proofs.«156254_j30545807409458_1_alg».proof.Proof.KI.Defs
import proofs.«156254_j30545807409458_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Fr Idealize.ShloMosaic.ValueIdx
open scoped BigOperators

variable (V : (c : Dev nD) → (b : Ref sig .tc) → Buf (Elt Ideal) ((c : Thread nD τ).loc b))

/-! ## The body's matrix product at an index

The product's dimension numbers contract the left operand's axis 1 with the right operand's axis 0; at result index
(t, k) and contraction position q the operands are read at (t, q) and (q, k). -/

theorem mm_lhs_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem mm_lhs_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem mm_rhs_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem mm_rhs_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The product into the zero splat, at (t, k): Σ_q a[t,q] · b[q,k]. -/
theorem mm_apply (a : FVec Ideal S1024x2048 .bf16) (b : FVec Ideal S2048x512 .bf16) (t : Fin 1024) (k : Fin 512) :
    matmul dot_S1024x2048_S2048x512_S1024x512_1_0_0_1_n_n none a b (constant (F := Ideal) S1024x512 .f32 0x00000000#32) (ix2 t k)
      = ∑ q : Fin 2048, a (ix2 t q) * b (ix2 q k) := by
  simp only [matmul]
  rw [Ideal.matmul_constant_zero_apply, ← Equiv.sum_comp (ValueIdx.contrEquiv1 dot_S1024x2048_S2048x512_S1024x512_1_0_0_1_n_n 2048 rfl rfl).symm]
  refine Finset.sum_congr rfl fun q _ => ?_
  have hq := ValueIdx.contrEquiv1_symm_val dot_S1024x2048_S2048x512_S1024x512_1_0_0_1_n_n 2048 rfl rfl q
  have el : dot_S1024x2048_S2048x512_S1024x512_1_0_0_1_n_n.lhsIdx (ix2 t k) ((ValueIdx.contrEquiv1 dot_S1024x2048_S2048x512_S1024x512_1_0_0_1_n_n 2048 rfl rfl).symm q) = ix2 t q := funext fun a => Fin.ext (by
    match a with
    | ⟨0, _⟩ => exact mm_lhs_0 _ _
    | ⟨1, _⟩ => exact (mm_lhs_1 _ _).trans hq)
  have er : dot_S1024x2048_S2048x512_S1024x512_1_0_0_1_n_n.rhsIdx (ix2 t k) ((ValueIdx.contrEquiv1 dot_S1024x2048_S2048x512_S1024x512_1_0_0_1_n_n 2048 rfl rfl).symm q) = ix2 q k := funext fun a => Fin.ext (by
    match a with
    | ⟨0, _⟩ => exact (mm_rhs_0 _ _).trans hq
    | ⟨1, _⟩ => exact mm_rhs_1 _ _)
  rw [el, er]

/-! ## The body's payload at an index -/

/-- One projection of a row block of tokens onto a column slab of weights, at (t, k). -/
abbrev pblk (x0 : Vec Ideal S1x1024x2048 .bf16) (x1 : Vec Ideal S1x2048x512 .bf16) (t : Fin 1024) (k : Fin 512) : EReal :=
  ∑ q : Fin 2048, x0 (ix3 (0 : Fin 1) t q) * x1 (ix3 (0 : Fin 1) q k)

/-- The stored slab at (0, t, k): silu of the first projection times the second. -/
theorem pay_apply (x0 : Vec Ideal S1x1024x2048 .bf16) (x1 x2 : Vec Ideal S1x2048x512 .bf16) (t : Fin 1024) (k : Fin 512) :
    k0_pay1 x0 x1 x2 (ix3 (0 : Fin 1) t k)
      = (pblk x0 x1 t k * Ideal.logistic (pblk x0 x1 t k)) * pblk x0 x2 t k := by
  unfold k0_pay1
  rw [shapeCast_ab_1ab_apply]
  show (matmul (F := Ideal) dot_S1024x2048_S2048x512_S1024x512_1_0_0_1_n_n none _ _ _ (ix2 t k) * FloatOps.logistic (matmul (F := Ideal) dot_S1024x2048_S2048x512_S1024x512_1_0_0_1_n_n none _ _ _ (ix2 t k))) * matmul (F := Ideal) dot_S1024x2048_S2048x512_S1024x512_1_0_0_1_n_n none _ _ _ (ix2 t k) = _
  rw [mm_apply, mm_apply]
  simp only [shapeCast_1ab_ab_apply, Ideal.logistic_def]

/-! ## Each input block, read where the output's rectangle says

Point t = 11·e + j of the 8 × 11 grid reads row block e of the tokens and column slab j of both weight arrays, and
writes column slab j of row block e of the output. -/

/-- The four windows' index maps at every point of the grid. -/
theorem idx_facts0 : ∀ t : Fin cfg0.N,
    win0_0.index t (0 : Fin 3) = t.val / 11 ∧ win0_0.index t (1 : Fin 3) = 0 ∧ win0_0.index t (2 : Fin 3) = 0
    ∧ win0_1.index t (0 : Fin 3) = t.val / 11 ∧ win0_1.index t (1 : Fin 3) = 0 ∧ win0_1.index t (2 : Fin 3) = t.val % 11
    ∧ win0_2.index t (0 : Fin 3) = t.val / 11 ∧ win0_2.index t (1 : Fin 3) = 0 ∧ win0_2.index t (2 : Fin 3) = t.val % 11
    ∧ win0_3.index t (0 : Fin 3) = t.val / 11 ∧ win0_3.index t (1 : Fin 3) = 0 ∧ win0_3.index t (2 : Fin 3) = t.val % 11 :=
  (by decide +kernel : ∀ t : Fin grid0.N, _)

/-- The token block at point t is row block t / 11 of the token array. -/
theorem blk_read0 (c : Dev nD) (t : Fin cfg0.N) (r : Fin 1024) (q : Fin 2048) (e : Fin 8) (he : e.val = t.val / 11) :
    (iblk0 V c 0 t : Vec Ideal S1x1024x2048 .bf16) (ix3 (0 : Fin 1) r q)
      = (V c main_v0 : S8x1024x2048.Idx → EReal) (ix3 e r q) := by
  obtain ⟨f0, f1, f2, -⟩ := idx_facts0 t
  unfold iblk0
  rw [View.read_apply]
  show V c main_v0 _ = V c main_v0 _
  congr 1
  funext a
  apply Fin.ext
  match a with
  | ⟨0, _⟩ => show win0_0.index t (0 : Fin 3) * 1 + 1 * 0 = e.val; rw [f0, he]; omega
  | ⟨1, _⟩ => show win0_0.index t (1 : Fin 3) * 1024 + 1 * r.val = r.val; rw [f1]; omega
  | ⟨2, _⟩ => show win0_0.index t (2 : Fin 3) * 2048 + 1 * q.val = q.val; rw [f2]; omega

/-- The first weight block at point t is column slab t % 11 of row block t / 11 of the first weight array. -/
theorem blk_read1 (c : Dev nD) (t : Fin cfg0.N) (q : Fin 2048) (k : Fin 512) (e : Fin 8) (h : Fin 5632)
    (he : e.val = t.val / 11) (hh : h.val = 512 * (t.val % 11) + k.val) :
    (iblk0 V c 1 t : Vec Ideal S1x2048x512 .bf16) (ix3 (0 : Fin 1) q k)
      = (V c main_v1 : S8x2048x5632.Idx → EReal) (ix3 e q h) := by
  obtain ⟨-, -, -, f0, f1, f2, -⟩ := idx_facts0 t
  unfold iblk0
  rw [View.read_apply]
  show V c main_v1 _ = V c main_v1 _
  congr 1
  funext a
  apply Fin.ext
  match a with
  | ⟨0, _⟩ => show win0_1.index t (0 : Fin 3) * 1 + 1 * 0 = e.val; rw [f0, he]; omega
  | ⟨1, _⟩ => show win0_1.index t (1 : Fin 3) * 2048 + 1 * q.val = q.val; rw [f1]; omega
  | ⟨2, _⟩ => show win0_1.index t (2 : Fin 3) * 512 + 1 * k.val = h.val; rw [f2, hh]; omega

/-- The second weight block likewise, of the second weight array. -/
theorem blk_read2 (c : Dev nD) (t : Fin cfg0.N) (q : Fin 2048) (k : Fin 512) (e : Fin 8) (h : Fin 5632)
    (he : e.val = t.val / 11) (hh : h.val = 512 * (t.val % 11) + k.val) :
    (iblk0 V c 2 t : Vec Ideal S1x2048x512 .bf16) (ix3 (0 : Fin 1) q k)
      = (V c main_v2 : S8x2048x5632.Idx → EReal) (ix3 e q h) := by
  obtain ⟨-, -, -, -, -, -, f0, f1, f2, -⟩ := idx_facts0 t
  unfold iblk0
  rw [View.read_apply]
  show V c main_v2 _ = V c main_v2 _
  congr 1
  funext a
  apply Fin.ext
  match a with
  | ⟨0, _⟩ => show win0_2.index t (0 : Fin 3) * 1 + 1 * 0 = e.val; rw [f0, he]; omega
  | ⟨1, _⟩ => show win0_2.index t (1 : Fin 3) * 2048 + 1 * q.val = q.val; rw [f1]; omega
  | ⟨2, _⟩ => show win0_2.index t (2 : Fin 3) * 512 + 1 * k.val = h.val; rw [f2, hh]; omega

/-- So the block projections are the specification's projections at the array's coordinates. -/
theorem pblk_eq1 (c : Dev nD) (t : Fin cfg0.N) (r : Fin 1024) (k : Fin 512) (e : Fin 8) (h : Fin 5632)
    (he : e.val = t.val / 11) (hh : h.val = 512 * (t.val % 11) + k.val) :
    pblk (iblk0 V c 0 t) (iblk0 V c 1 t) r k = Cert.Spec.proj (V c main_v0) (V c main_v1) e r h := by
  unfold Cert.Spec.proj
  refine Finset.sum_congr rfl fun q _ => ?_
  exact congr (congrArg HMul.hMul (blk_read0 V c t r q e he)) (blk_read1 V c t q k e h he hh)

theorem pblk_eq2 (c : Dev nD) (t : Fin cfg0.N) (r : Fin 1024) (k : Fin 512) (e : Fin 8) (h : Fin 5632)
    (he : e.val = t.val / 11) (hh : h.val = 512 * (t.val % 11) + k.val) :
    pblk (iblk0 V c 0 t) (iblk0 V c 2 t) r k = Cert.Spec.proj (V c main_v0) (V c main_v2) e r h := by
  unfold Cert.Spec.proj
  refine Finset.sum_congr rfl fun q _ => ?_
  exact congr (congrArg HMul.hMul (blk_read0 V c t r q e he)) (blk_read2 V c t q k e h he hh)

/-- The specification at an index given by its coordinates. -/
theorem Yspec_at (x : S8x1024x2048.Idx → EReal) (w1 w2 : S8x2048x5632.Idx → EReal) (i : S8x1024x5632.Idx)
    (e : Fin 8) (r : Fin 1024) (h : Fin 5632) (h0 : (i 0).val = e.val) (h1 : (i 1).val = r.val) (h2 : (i 2).val = h.val) :
    Cert.Spec.Yspec x w1 w2 i = Cert.Spec.yAt x w1 w2 e r h := by
  have hi : i = ix3 e r h := funext fun a => Fin.ext (by
    match a with
    | ⟨0, _⟩ => exact h0
    | ⟨1, _⟩ => exact h1
    | ⟨2, _⟩ => exact h2)
  subst hi
  rfl

/-! ## What a point writes back, the cover, the array -/

/-- What point t writes back is block t of the specification's array. -/
theorem flushed_eq0 (c : Dev nD) (t : Fin cfg0.N) :
    (dat0 (F := Ideal) V c).flushed 3 t
      = ((cfg0.win 3).blk t).view.read (Elt Ideal) (Cert.Spec.Yspec (V c main_v0) (V c main_v1) (V c main_v2)) := by
  show (cfg0.win 3).cut (grid0.coords t) ((dat0 (F := Ideal) V c).after 3 t) = _
  rw [after0_3]
  obtain ⟨-, -, -, -, -, -, -, -, -, f0, f1, f2⟩ := idx_facts0 t
  have hN : cfg0.N = 88 := N_0
  have ht : t.val < 88 := hN ▸ t.isLt
  refine funext fun (j : S1x1024x512.Idx) => ?_
  obtain ⟨u, r, k, rfl⟩ : ∃ (u : Fin 1) (r : Fin 1024) (k : Fin 512), j = ix3 u r k := ⟨j 0, j 1, j 2, eq_ix3 j⟩
  obtain rfl : u = 0 := Subsingleton.elim _ _
  show k0_pay1 (iblk0 V c 0 t) (iblk0 V c 1 t) (iblk0 V c 2 t) (ix3 (0 : Fin 1) r k)
    = Cert.Spec.Yspec (V c main_v0) (V c main_v1) (V c main_v2) (((cfg0.win 3).blk t).view.emb (ix3 (0 : Fin 1) r k))
  refine (pay_apply _ _ _ r k).trans ?_
  have hr : r.val < 1024 := r.isLt
  have hk : k.val < 512 := k.isLt
  rw [pblk_eq1 V c t r k ⟨t.val / 11, by omega⟩ ⟨512 * (t.val % 11) + k.val, by omega⟩ rfl rfl,
    pblk_eq2 V c t r k ⟨t.val / 11, by omega⟩ ⟨512 * (t.val % 11) + k.val, by omega⟩ rfl rfl]
  symm
  refine Yspec_at _ _ _ _ _ r _ ?_ ?_ ?_
  · show win0_3.index t (0 : Fin 3) * 1 + 1 * 0 = t.val / 11; rw [f0]; omega
  · show win0_3.index t (1 : Fin 3) * 1024 + 1 * r.val = r.val; rw [f1]; omega
  · show win0_3.index t (2 : Fin 3) * 512 + 1 * k.val = 512 * (t.val % 11) + k.val; rw [f2]; omega

/-- An index of the output array is in point t's block iff each coordinate is in the block's range on its axis. -/
theorem mem_blk0 (t : Fin cfg0.N) (i : S8x1024x5632.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v4).slice (win0_3.rect t)).set ↔ _
  rw [View.set_slice_whole, Rect.mem_set_unit]
  exact Iff.rfl

/-- Index (e, r, h) of the output lies in the block of point 11·e + h / 512, and every point writes back. -/
theorem cover0 (i : S8x1024x5632.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 5632 := (i 2).isLt
  have hN : cfg0.N = 88 := N_0
  obtain ⟨t, ht⟩ : ∃ t : Fin cfg0.N, t.val = 11 * (i 0).val + (i 2).val / 512 := ⟨⟨11 * (i 0).val + (i 2).val / 512, by rw [hN]; omega⟩, rfl⟩
  obtain ⟨-, -, -, -, -, -, -, -, -, f0, f1, f2⟩ := idx_facts0 t
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; rw [f0]; omega
  | ⟨1, _⟩ => show win0_3.index t (1 : Fin 3) * 1024 ≤ (i 1).val ∧ (i 1).val < win0_3.index t (1 : Fin 3) * 1024 + 1024; rw [f1]; omega
  | ⟨2, _⟩ => show win0_3.index t (2 : Fin 3) * 512 ≤ (i 2).val ∧ (i 2).val < win0_3.index t (2 : Fin 3) * 512 + 512; rw [f2]; omega

/-- After region 0's last point its output array is the gated hidden activation of the region's three input arrays. -/
theorem final0 (c : Dev nD) :
    (dat0 (F := Ideal) V c).arrAt 3 cfg0.N = Cert.Spec.Yspec (V c main_v0) (V c main_v1) (V c main_v2) :=
  (dat0 (F := Ideal) V c).arrAt_eq_of_cover 3 (Cert.Spec.Yspec (V c main_v0) (V c main_v1) (V c main_v2))
    (fun t _ => flushed_eq0 V c t) cover0

end Cert.KernelIdeal.Val

end
-- ==== Proof.Val1.lean ====
/- Region 1's value over the extended reals: after the region, the result array holds
   Out[e,t,d] = Σ_h Y[e,t,h]·W3[e,h,d] of the two arrays the region read, the sum over h taken in eleven runs of 512. -/
import proofs.«156254_j30545807409458_1_alg».proof.Proof.KI.Defs
import proofs.«156254_j30545807409458_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ValOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Fr Idealize.ShloMosaic.ValueIdx

variable (V : (c : Dev nD) → (b : Ref sig .tc) → Buf (Elt Ideal) ((c : Thread nD τ).loc b))

/-! ## The body's three payloads at an index -/

theorem lhs_mm_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_mm_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_mm_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_mm_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product of a 1024 × 512 matrix with a 512 × 512 matrix, accumulated into zero, at an entry. -/
theorem mm_apply (a : FVec Ideal S1024x512 .bf16) (b : FVec Ideal S512x512 .bf16) (r : Fin 1024) (x : Fin 512) :
    matmul dot_S1024x512_S512x512_S1024x512_1_0_0_1_n_n none a b (constant S1024x512 .f32 0x00000000#32) (ix2 r x)
      = ∑ k : Fin 512, a (ix2 r k) * b (ix2 k x) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 r x) ((ValueIdx.contrEquiv1 dot_S1024x512_S512x512_S1024x512_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S1024x512_S512x512_S1024x512_1_0_0_1_n_n.rhsIdx (ix2 r x) ((ValueIdx.contrEquiv1 dot_S1024x512_S512x512_S1024x512_1_0_0_1_n_n 512 rfl rfl).symm k) = ix2 k x := funext fun a => Fin.ext (by
    match a with
    | ⟨0, _⟩ => exact (rhs_mm_0 _ _).trans hk
    | ⟨1, _⟩ => exact rhs_mm_1 _ _)
  rw [el, er]

/-- The reset value is zero everywhere. -/
theorem pay1_apply (r : Fin 1024) (x : Fin 512) : k1_pay1 (F := Ideal) (ix2 r x) = 0 := by
  unfold k1_pay1
  rw [shapeCast_self]
  exact Ideal.ofBits_zero_f32

/-- One step of the accumulation: the old entry plus the row-by-column product of the two blocks. -/
theorem pay2_apply (x0 : Vec Ideal S1x1024x512 .bf16) (x1 : Vec Ideal S1x512x512 .bf16) (a : Vec Ideal S1024x512 .f32)
    (r : Fin 1024) (x : Fin 512) :
    k1_pay2 x0 x1 a (ix2 r x) = a (ix2 r x) + ∑ k : Fin 512, x0 (ix3 (0 : Fin 1) r k) * x1 (ix3 (0 : Fin 1) k x) := by
  unfold k1_pay2
  rw [shapeCast_self, addf_apply, mm_apply]
  refine congrArg (a (ix2 r x) + ·) (Finset.sum_congr rfl fun k _ => ?_)
  rw [shapeCast_1ab_ab_apply, shapeCast_1ab_ab_apply]

/-- The copy into the output block only adds a unit axis. -/
theorem pay3_apply (v : Vec Ideal S1024x512 .f32) (u : Fin 1) (r : Fin 1024) (x : Fin 512) :
    k1_pay3 v (ix3 u r x) = v (ix2 r x) := by
  unfold k1_pay3
  exact shapeCast_ab_1ab_apply _ _ _ _ _

/-! ## The blocks the body reads, as entries of the two arrays -/

/-- The hidden activations' block at a point. -/
abbrev yblk (c : Dev nD) (t : Fin cfg1.N) : Vec Ideal S1x1024x512 .bf16 := iblk1 V c 0 t
/-- The weights' tile at a point. -/
abbrev wblk (c : Dev nD) (t : Fin cfg1.N) : Vec Ideal S1x512x512 .bf16 := iblk1 V c 1 t
/-- The hidden activations as the region finds them. -/
abbrev yarr (c : Dev nD) : S8x1024x5632.Idx → EReal := V c main_v4
/-- The weights as the region finds them. -/
abbrev warr (c : Dev nD) : S8x5632x2048.Idx → EReal := V c main_v3

/-- The three index maps at point t = 44e + 11d + j: the activations' block is (e, 0, j), the weights' tile
    (e, j, d), the output's block (e, 0, d). -/
theorem idx_facts1 : ∀ t : Fin cfg1.N,
    win1_0.index t (0 : Fin 3) = t.val / 44 ∧ win1_0.index t (1 : Fin 3) = 0 ∧ win1_0.index t (2 : Fin 3) = t.val % 11
    ∧ win1_1.index t (0 : Fin 3) = t.val / 44 ∧ win1_1.index t (1 : Fin 3) = t.val % 11 ∧ win1_1.index t (2 : Fin 3) = t.val / 11 % 4
    ∧ win1_2.index t (0 : Fin 3) = t.val / 44 ∧ win1_2.index t (1 : Fin 3) = 0 ∧ win1_2.index t (2 : Fin 3) = t.val / 11 % 4 :=
  (by decide +kernel : ∀ t : Fin grid1.N, _)

/-- Entry (r, k) of the activations' block at point t is entry (e, r, 512 j + k) of the array. -/
theorem yblk_apply (c : Dev nD) (t : Fin cfg1.N) (r : Fin 1024) (k : Fin 512) (e : Fin 8) (h : Fin 5632)
    (he : e.val = t.val / 44) (hh : h.val = 512 * (t.val % 11) + k.val) :
    yblk V c t (ix3 (0 : Fin 1) r k) = yarr V c (ix3 e r h) := by
  obtain ⟨e0, e1, e2, -⟩ := idx_facts1 t
  show V c main_v4 (((cfg1.win 0).blk t).view.emb (ix3 (0 : Fin 1) r k)) = V c main_v4 (ix3 e r h)
  refine congrArg (V c main_v4) (funext fun a => Fin.ext ?_)
  match a with
  | ⟨0, _⟩ => show win1_0.index t (0 : Fin 3) * 1 + 1 * 0 = e.val; omega
  | ⟨1, _⟩ => show win1_0.index t (1 : Fin 3) * 1024 + 1 * r.val = r.val; omega
  | ⟨2, _⟩ => show win1_0.index t (2 : Fin 3) * 512 + 1 * k.val = h.val; omega

/-- Entry (k, x) of the weights' tile at point t is entry (e, 512 j + k, 512 d + x) of the array. -/
theorem wblk_apply (c : Dev nD) (t : Fin cfg1.N) (k x : Fin 512) (e : Fin 8) (h : Fin 5632) (d : Fin 2048)
    (he : e.val = t.val / 44) (hh : h.val = 512 * (t.val % 11) + k.val) (hd : d.val = 512 * (t.val / 11 % 4) + x.val) :
    wblk V c t (ix3 (0 : Fin 1) k x) = warr V c (ix3 e h d) := by
  obtain ⟨-, -, -, e0, e1, e2, -⟩ := idx_facts1 t
  show V c main_v3 (((cfg1.win 1).blk t).view.emb (ix3 (0 : Fin 1) k x)) = V c main_v3 (ix3 e h d)
  refine congrArg (V c main_v3) (funext fun a => Fin.ext ?_)
  match a with
  | ⟨0, _⟩ => show win1_1.index t (0 : Fin 3) * 1 + 1 * 0 = e.val; omega
  | ⟨1, _⟩ => show win1_1.index t (1 : Fin 3) * 512 + 1 * k.val = h.val; omega
  | ⟨2, _⟩ => show win1_1.index t (2 : Fin 3) * 512 + 1 * x.val = d.val; omega

/-! ## The accumulator after a point -/

/-- The first m runs of 512 consecutive terms of a sum over 5632 = 11 · 512 terms. -/
def part (g : Fin 5632 → EReal) (m : ℕ) : EReal :=
  ∑ a ∈ Finset.range m, ∑ k : Fin 512, (if hj : 512 * a + k.val < 5632 then g ⟨512 * a + k.val, hj⟩ else 0)

theorem part_zero (g : Fin 5632 → EReal) : part g 0 = 0 := Finset.sum_range_zero _

theorem part_succ (g : Fin 5632 → EReal) (m : ℕ) :
    part g (m + 1) = part g m + ∑ k : Fin 512, (if hj : 512 * m + k.val < 5632 then g ⟨512 * m + k.val, hj⟩ else 0) :=
  Finset.sum_range_succ _ _

/-- All eleven runs are the whole sum. -/
theorem part_all (g : Fin 5632 → EReal) : part g 11 = ∑ h : Fin 5632, g h := (Cert.Spec.sum_split g).symm

/-- The terms of the output entry (e, r, d): over the hidden unit h, the activation times the weight. -/
abbrev term (c : Dev nD) (e : Fin 8) (r : Fin 1024) (d : Fin 2048) : Fin 5632 → EReal :=
  fun h => yarr V c (ix3 e r h) * warr V c (ix3 e h d)

/-- The product the body adds at point n = 44e + 11d' + j, at entry (r, x), is run j of the terms of the output
    entry (e, r, 512 d' + x). -/
theorem run_eq (c : Dev nD) (n : ℕ) (hn : n < cfg1.N) (r : Fin 1024) (x : Fin 512) (e : Fin 8) (d : Fin 2048)
    (he : e.val = n / 44) (hd : d.val = 512 * (n / 11 % 4) + x.val) :
    ∑ k : Fin 512, yblk V c ⟨n, hn⟩ (ix3 (0 : Fin 1) r k) * wblk V c ⟨n, hn⟩ (ix3 (0 : Fin 1) k x)
      = ∑ k : Fin 512, (if hj : 512 * (n % 11) + k.val < 5632 then term V c e r d ⟨512 * (n % 11) + k.val, hj⟩ else 0) := by
  refine Finset.sum_congr rfl fun k _ => ?_
  have hlt : 512 * (n % 11) + k.val < 5632 := by have := k.isLt; omega
  rw [dif_pos hlt, yblk_apply V c ⟨n, hn⟩ r k e ⟨_, hlt⟩ he rfl, wblk_apply V c ⟨n, hn⟩ k x e ⟨_, hlt⟩ d he rfl hd]

/-- After point n = 44e + 11d' + j the accumulator's entry (r, x) holds runs 0 … j of the terms of the output
    entry (e, r, 512 d' + x): by induction on the point, a point with j = 0 starting from zero. -/
theorem acc1_apply (c : Dev nD) : ∀ (n : ℕ) (hn : n < cfg1.N) (r : Fin 1024) (x : Fin 512) (e : Fin 8) (d : Fin 2048),
    e.val = n / 44 → d.val = 512 * (n / 11 % 4) + x.val →
    acc1 V c n hn (ix2 r x) = part (term V c e r d) (n % 11 + 1)
  | 0, hn, r, x, e, d, he, hd => by
    rw [acc1_zero]
    refine (pay2_apply (yblk V c ⟨0, hn⟩) (wblk V c ⟨0, hn⟩) (k1_pay1 (F := Ideal)) r x).trans ?_
    rw [pay1_apply, run_eq V c 0 hn r x e d he hd]
    show 0 + _ = part _ (0 + 1)
    rw [part_succ, part_zero]
  | n + 1, hn, r, x, e, d, he, hd => by
    have hN : cfg1.N = 352 := N_1
    rw [acc1_succ]
    refine (pay2_apply (yblk V c ⟨n + 1, hn⟩) (wblk V c ⟨n + 1, hn⟩) _ r x).trans ?_
    rw [run_eq V c (n + 1) hn r x e d he hd]
    by_cases hz : (n + 1) % 11 = 0
    · rw [if_pos hz, pay1_apply, hz, part_succ, part_zero]
    · rw [if_neg hz, acc1_apply c n (Nat.lt_of_succ_lt hn) r x e d (by omega) (by omega)]
      have hs : (n + 1) % 11 = n % 11 + 1 := by omega
      rw [hs]
      exact (part_succ _ _).symm

/-! ## From the blocks written back to the array -/

/-- What a point with j = 10 writes back is its block of the output projection: the accumulator there holds all
    eleven runs, and eleven runs of 512 are the whole sum over the hidden units. -/
theorem flushed1_eq (c : Dev nD) (t : Fin cfg1.N) (hf : (cfg1.win 2).flush t = true) :
    (dat1 (F := Ideal) V c).flushed 2 t
      = ((cfg1.win 2).blk t).view.read (Elt Ideal) (Cert.Spec.Ospec (V c main_v4) (V c main_v3)) := by
  have ht : t.val % 11 = 10 := (flush1_2 t).mp hf
  obtain ⟨-, -, -, -, -, -, e0, e1, e2⟩ := idx_facts1 t
  have hN : cfg1.N = 352 := N_1
  have hlt : t.val < 352 := hN ▸ t.isLt
  show (cfg1.win 2).cut (grid1.coords t) ((dat1 (F := Ideal) V c).after 2 t) = _
  rw [after1_2]
  funext y
  have hy0 : (y 0).val < 1 := (y 0).isLt
  have hy1 : (y 1).val < 1024 := (y 1).isLt
  have hy2 : (y 2).val < 512 := (y 2).isLt
  have hx : (cfg1.win 2).xinj (grid1.coords t) y
      = ix3 (⟨(y 0).val, hy0⟩ : Fin 1) (⟨(y 1).val, hy1⟩ : Fin 1024) (⟨(y 2).val, hy2⟩ : Fin 512) :=
    funext fun a => by match a with | ⟨0, _⟩ => rfl | ⟨1, _⟩ => rfl | ⟨2, _⟩ => rfl
  have hemb : ((cfg1.win 2).blk t).view.emb y
      = ix3 (⟨t.val / 44, by omega⟩ : Fin 8) (⟨(y 1).val, hy1⟩ : Fin 1024) (⟨512 * (t.val / 11 % 4) + (y 2).val, by omega⟩ : Fin 2048) :=
    funext fun a => Fin.ext (by
      match a with
      | ⟨0, _⟩ => show win1_2.index t (0 : Fin 3) * 1 + 1 * (y 0).val = t.val / 44; omega
      | ⟨1, _⟩ => show win1_2.index t (1 : Fin 3) * 1024 + 1 * (y 1).val = (y 1).val; omega
      | ⟨2, _⟩ => show win1_2.index t (2 : Fin 3) * 512 + 1 * (y 2).val = 512 * (t.val / 11 % 4) + (y 2).val; omega)
  refine ((congrArg (k1_pay3 (acc1 (F := Ideal) V c t.val t.isLt)) hx).trans ?_).trans
    (congrArg (Cert.Spec.Ospec (V c main_v4) (V c main_v3)) hemb).symm
  rw [pay3_apply, acc1_apply V c t.val t.isLt ⟨(y 1).val, hy1⟩ ⟨(y 2).val, hy2⟩ ⟨t.val / 44, by omega⟩
    ⟨512 * (t.val / 11 % 4) + (y 2).val, by omega⟩ rfl rfl, ht]
  exact part_all _

/-- Entry (e, r, d) of the output lies in the block written back at the point 44e + 11 (d / 512) + 10. -/
theorem cover1 (i : S8x1024x2048.Idx) :
    ∃ t : Fin cfg1.N, (cfg1.win 2).flush t = true ∧ i ∈ ((cfg1.win 2).blk t).view.set := by
  have h0 : (i 0).val < 8 := (i 0).isLt
  have h1 : (i 1).val < 1024 := (i 1).isLt
  have h2 : (i 2).val < 2048 := (i 2).isLt
  have hN : cfg1.N = 352 := N_1
  obtain ⟨t, tv⟩ : ∃ t : Fin cfg1.N, t.val = 44 * (i 0).val + 11 * ((i 2).val / 512) + 10 := ⟨⟨_, by omega⟩, rfl⟩
  obtain ⟨-, -, -, -, -, -, e0, e1, e2⟩ := idx_facts1 t
  refine ⟨t, (flush1_2 t).mpr (by omega), ?_⟩
  show i ∈ ((View.whole main_v5).slice (win1_2.rect t)).set
  rw [View.set_slice_whole, Rect.mem_set_unit]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 512 ≤ (i 2).val ∧ (i 2).val < win1_2.index t (2 : Fin 3) * 512 + 512; omega

/-- After region 1's last point its output array is the output projection of the region's two input arrays. -/
theorem final1 (c : Dev nD) :
    (dat1 (F := Ideal) V c).arrAt 2 cfg1.N = Cert.Spec.Ospec (V c main_v4) (V c main_v3) := by
  exact (dat1 (F := Ideal) V c).arrAt_eq_of_cover 2 (Cert.Spec.Ospec (V c main_v4) (V c main_v3))
    (fun t hf => flushed1_eq V c t hf) (fun i => cover1 i)

end Cert.KernelIdeal.ValOut

end
-- ==== Proof.RefSpec.lean ====
/- The reference's result over the extended reals is the specification: its two batched products are the sums
   `proj`, its quotient 1 / (1 + exp (−y)) is the logistic function `Ideal.logistic` of y, its last batched product is
   `oAt`. -/
import proofs.«156254_j30545807409458_1_alg».proof.Proof.Gen.ReferenceIdeal.Read
import proofs.«156254_j30545807409458_1_alg».proof.Proof.Spec
import Idealize.ShloMosaic.Lib.IdealHost

noncomputable section

open scoped BigOperators

namespace Cert.RefSpec

open Cert.ReferenceIdeal Cert.ReferenceIdeal.Gen Idealize.ShloMosaic Idealize.ShloMosaic.ValueIdx
open Cert.ReferenceIdeal.Read

/-- The batched product with the first weight, at coordinates: Σ_k x[e,t,k] · W1[e,k,h]. -/
theorem gate_at (x0 : (⟨S8x1024x2048, .f32⟩ : BufTy).Contents (Elt Ideal)) (x1 : (⟨S8x2048x5632, .f32⟩ : BufTy).Contents (Elt Ideal))
    (e : Fin 8) (t : Fin 1024) (h : Fin 5632) :
    val_main_v0 (F := Ideal) x0 x1 (ix3 e t h) = Cert.Spec.proj x0 x1 e t h := by
  have hl : ∀ k : Fin 2048, lidx_main_v0 (ix3 e t h) k = ix3 e t k := fun k =>
    funext fun a => Fin.ext (by match a with | ⟨0, _⟩ => rfl | ⟨1, _⟩ => rfl | ⟨2, _⟩ => rfl)
  have hr : ∀ k : Fin 2048, ridx_main_v0 (ix3 e t h) k = ix3 e k h := fun k =>
    funext fun a => Fin.ext (by match a with | ⟨0, _⟩ => rfl | ⟨1, _⟩ => rfl | ⟨2, _⟩ => rfl)
  rw [val_main_v0_apply]
  unfold Cert.Spec.proj
  exact Finset.sum_congr rfl fun k _ => by rw [hl, hr]

/-- The batched product with the second weight, at coordinates: Σ_k x[e,t,k] · W2[e,k,h]. -/
theorem up_at (x0 : (⟨S8x1024x2048, .f32⟩ : BufTy).Contents (Elt Ideal)) (x2 : (⟨S8x2048x5632, .f32⟩ : BufTy).Contents (Elt Ideal))
    (e : Fin 8) (t : Fin 1024) (h : Fin 5632) :
    val_main_v1 (F := Ideal) x0 x2 (ix3 e t h) = Cert.Spec.proj x0 x2 e t h := by
  have hl : ∀ k : Fin 2048, lidx_main_v1 (ix3 e t h) k = ix3 e t k := fun k =>
    funext fun a => Fin.ext (by match a with | ⟨0, _⟩ => rfl | ⟨1, _⟩ => rfl | ⟨2, _⟩ => rfl)
  have hr : ∀ k : Fin 2048, ridx_main_v1 (ix3 e t h) k = ix3 e k h := fun k =>
    funext fun a => Fin.ext (by match a with | ⟨0, _⟩ => rfl | ⟨1, _⟩ => rfl | ⟨2, _⟩ => rfl)
  rw [val_main_v1_apply]
  unfold Cert.Spec.proj
  exact Finset.sum_congr rfl fun k _ => by rw [hl, hr]

/-- The gated hidden activation at coordinates: with y1, y2 the two projections, the reference forms
    (y1 · (1 / (1 + exp (−y1)))) · y2, the constant 1 being the word 0x3F800000; 1 / (1 + exp (−y)) is the logistic function
    by definition. -/
theorem hidden_at (x0 : (⟨S8x1024x2048, .f32⟩ : BufTy).Contents (Elt Ideal)) (x1 x2 : (⟨S8x2048x5632, .f32⟩ : BufTy).Contents (Elt Ideal))
    (e : Fin 8) (t : Fin 1024) (h : Fin 5632) :
    val_main_v3 (F := Ideal) x0 x1 x2 (ix3 e t h) = Cert.Spec.yAt x0 x1 x2 e t h := by
  rw [val_main_v3_apply, val_main_v2_apply, val_main_call0_v5_apply, val_main_call0_v4_apply, val_main_call0_v3_apply,
    val_main_call0_v2_apply, val_main_call0_v1_apply, val_main_call0_v0_apply, val_main_call0_cst_0_apply,
    val_main_call0_cst_apply, gate_at, up_at]
  simp only [Ideal.mulf_def, Ideal.hostDivf_def, Ideal.addf_def, Ideal.hostUnary_exp_def, Ideal.hostNegf_def,
    Ideal.negf_def, Ideal.ofBits_def, Ideal.ofBits_one_f32]
  rfl

/-- The reference's result stage is the output projection of the gated hidden activation of its arguments. -/
theorem ref_eq (x0 : (⟨S8x1024x2048, .f32⟩ : BufTy).Contents (Elt Ideal)) (x1 x2 : (⟨S8x2048x5632, .f32⟩ : BufTy).Contents (Elt Ideal))
    (x3 : (⟨S8x5632x2048, .f32⟩ : BufTy).Contents (Elt Ideal)) :
    Cert.ReferenceIdeal.Read.val_main_v4 (F := Ideal) x0 x1 x2 x3 = Cert.Spec.Ospec (Cert.Spec.Yspec x0 x1 x2) x3 := by
  refine funext fun (i : (⟨3, ![8, 1024, 2048]⟩ : Shape).Idx) => ?_
  obtain ⟨e, t, d, rfl⟩ : ∃ (e : Fin 8) (t : Fin 1024) (d : Fin 2048), i = ix3 e t d :=
    ⟨(i 0 : Fin 8), (i 1 : Fin 1024), (i 2 : Fin 2048), eq_ix3 i⟩
  have hl : ∀ h : Fin 5632, lidx_main_v4 (ix3 e t d) h = ix3 e t h := fun h =>
    funext fun a => Fin.ext (by match a with | ⟨0, _⟩ => rfl | ⟨1, _⟩ => rfl | ⟨2, _⟩ => rfl)
  have hr : ∀ h : Fin 5632, ridx_main_v4 (ix3 e t d) h = ix3 e h d := fun h =>
    funext fun a => Fin.ext (by match a with | ⟨0, _⟩ => rfl | ⟨1, _⟩ => rfl | ⟨2, _⟩ => rfl)
  rw [val_main_v4_apply]
  show _ = Cert.Spec.oAt (Cert.Spec.Yspec x0 x1 x2) x3 e t d
  unfold Cert.Spec.oAt
  refine Finset.sum_congr rfl fun h _ => ?_
  rw [hl, hr, hidden_at]
  rfl

end Cert.RefSpec

end
-- ==== Proof.lean ====
/-
  The certificate of a mixture-of-experts gated feed-forward kernel against its plain reference.

  For each of 8 experts the kernel computes, in two pipelined regions, first the gated hidden activation
  Y = silu(x·W1) ⊙ (x·W2) slab by slab, then the output Y·W3 accumulated over eleven slabs of 512 hidden units; the
  reference computes the same with three batched products. Over the extended reals the kernel's conversions of its
  arguments to a narrower float format are the identity, its logistic function is the reference's 1 / (1 + exp(−x)),
  a matrix product into a zero accumulator is the plain sum, and a sum taken in eleven runs of 512 terms is the whole
  sum: both programs end with the result array at `Ospec (Yspec x W1 W2) W3`.

  The frames of the two kernel programs (the printed one at the word level and its idealization, whose texts agree) are
  the run of the program's items — four host conversions, two kernel regions — with the argument arrays read back at
  the end; the reference's frame is its run with the result dropped. The ideal pass rewrote nothing, so there is
  nothing to preserve.
-/
import proofs.«156254_j30545807409458_1_alg».proof.Defs
import proofs.«156254_j30545807409458_1_alg».proof.Proof.Gen.Kernel
import proofs.«156254_j30545807409458_1_alg».proof.Proof.Gen.KernelIdeal
import proofs.«156254_j30545807409458_1_alg».proof.Proof.Gen.ReferenceIdeal
import proofs.«156254_j30545807409458_1_alg».proof.Proof.Gen.Pre_finite_inputs
import proofs.«156254_j30545807409458_1_alg».proof.Proof.Gen.ReferenceIdeal.Run
import proofs.«156254_j30545807409458_1_alg».proof.Proof.Gen.ReferenceIdeal.Read
import proofs.«156254_j30545807409458_1_alg».proof.Proof.K.Run
import proofs.«156254_j30545807409458_1_alg».proof.Proof.KI.Run
import proofs.«156254_j30545807409458_1_alg».proof.Proof.Val0
import proofs.«156254_j30545807409458_1_alg».proof.Proof.Val1
import proofs.«156254_j30545807409458_1_alg».proof.Proof.RefSpec
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem

/-! ## The kernel's result over the extended reals -/

section Value

open Cert.KernelIdeal Cert.KernelIdeal.Gen Cert.KernelIdeal.Fr

variable (m : (ℓ : Loc nD τ sig) → Buf (Elt Ideal) ℓ)

/-- Over the extended reals a conversion to a narrower float format is the identity: after the four host conversions
    the converted buffers hold the arguments. -/
theorem conv0 (c : Dev nD) : E1 m c main_v0 = m ((c : Thread nD τ).loc main_arg0) := by
  show StableHlo.after hostOps0 (V0 m c) (Proc.devRef .tc main_v0) = _
  after_results <;> rfl
theorem conv1 (c : Dev nD) : E1 m c main_v1 = m ((c : Thread nD τ).loc main_arg1) := by
  show StableHlo.after hostOps0 (V0 m c) (Proc.devRef .tc main_v1) = _
  after_results <;> rfl
theorem conv2 (c : Dev nD) : E1 m c main_v2 = m ((c : Thread nD τ).loc main_arg2) := by
  show StableHlo.after hostOps0 (V0 m c) (Proc.devRef .tc main_v2) = _
  after_results <;> rfl
theorem conv3 (c : Dev nD) : E1 m c main_v3 = m ((c : Thread nD τ).loc main_arg3) := by
  show StableHlo.after hostOps0 (V0 m c) (Proc.devRef .tc main_v3) = _
  after_results <;> rfl

/-- Region 1 reads the array of hidden activations as region 0 left it, and the converted fourth argument. -/
theorem entry1_y (c : Dev nD) : E2 m c main_v4 = o2 m c := by
  show W2 m c main_v4 = o2 m c
  unfold W2; exact Function.update_self ..
theorem entry1_w (c : Dev nD) : E2 m c main_v3 = m ((c : Thread nD τ).loc main_arg3) :=
  (E2_of m c main_v3 (by decide)).trans (conv3 m c)

/-- What region 0 leaves: the gated hidden activation of the first three arguments. -/
theorem hidden_eq (c : Dev nD) :
    o2 m c = Cert.Spec.Yspec (m ((c : Thread nD τ).loc main_arg0)) (m ((c : Thread nD τ).loc main_arg1)) (m ((c : Thread nD τ).loc main_arg2)) := by
  unfold o2
  rw [Cert.KernelIdeal.Val.final0 (E1 m) c, conv0, conv1, conv2]

/-- What region 1 leaves: the output projection of that activation by the fourth argument. -/
theorem result_eq (c : Dev nD) :
    o3 m c = Cert.Spec.Ospec (Cert.Spec.Yspec (m ((c : Thread nD τ).loc main_arg0)) (m ((c : Thread nD τ).loc main_arg1)) (m ((c : Thread nD τ).loc main_arg2)))
      (m ((c : Thread nD τ).loc main_arg3)) := by
  unfold o3
  rw [Cert.KernelIdeal.ValOut.final1 (E2 m) c, entry1_y, entry1_w, hidden_eq]

end Value

/-! ## The claims -/

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the result array at the specification of the
    arguments: the kernel's by its run and the two regions' values, the reference's by its run read stage by stage. -/
theorem algebraic : Cert.algebraic_KernelIdeal_ReferenceIdeal := by
  intro m ρ m' ρ' _ hagree
  refine ⟨fun c => Cert.KernelIdeal.Fr.o3 m c, Cert.KernelIdeal.Fr.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2,
    Cert.ReferenceIdeal.Read.val_main_v4_eq, Cert.RefSpec.ref_eq]
  exact (result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
